-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S64x4096 : Shape := ⟨2, ![64, 4096]⟩
abbrev S4096x64 : Shape := ⟨2, ![4096, 64]⟩
abbrev S1x64 : Shape := ⟨2, ![1, 64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S1x64 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  main_v38

def fn_part1 {F : FTy → Type} [FloatOps F] (main_arg4 : FVec F S1x64 .f32) (main_arg5 : FVec F S64x4096 .f32) (main_arg6 : FVec F S4096x64 .f32) (main_arg7 : FVec F S1x64 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S64x4096 .f32 := Host.absf main_arg5
  let main_cst_8 : FVec F S_ .f32 := constant S_ .f32 0x7F800000#32
  let main_v25 : FVec F S64x4096 .f32 := broadcastInDim S64x4096 ![] bcast_S_S64x4096 main_cst_8
  let main_v26 : IVec S64x4096 1 := cmpf .olt main_v24 main_v25
  let main_c_9 : IVec S_ 1 := constantI S_ 1 1#1
  let main_v27 : IVec S_ 1 := (fun x v => Host.reduce IntOp.andi x v reducesTo_S64x4096_S_d0_1 h_S_) main_v26 main_c_9
  let main_v28 : IVec S_ 1 := andi main_v23 main_v27
  let main_v29 : FVec F S4096x64 .f32 := Host.absf main_arg6
  let main_cst_10 : FVec F S_ .f32 := constant S_ .f32 0x7F800000#32
  let main_v30 : FVec F S4096x64 .f32 := broadcastInDim S4096x64 ![] bcast_S_S4096x64 main_cst_10
  let main_v31 : IVec S4096x64 1 := cmpf .olt main_v29 main_v30
  let main_c_11 : IVec S_ 1 := constantI S_ 1 1#1
  let main_v32 : IVec S_ 1 := (fun x v => Host.reduce IntOp.andi x v reducesTo_S4096x64_S_d0_1 h_S_) main_v31 main_c_11
  let main_v33 : IVec S_ 1 := andi main_v28 main_v32
  fn_part2 (F := F) main_arg7 main_v33

def fn {F : FTy → Type} [FloatOps F] (main_arg0 : FVec F S4x4096x4096 .f32) (main_arg1 : FVec F S4096x4096 .f32) (main_arg2 : FVec F S64x4096 .f32) (main_arg3 : FVec F S4096x64 .f32) (main_arg4 : FVec F S1x64 .f32) (main_arg5 : FVec F S64x4096 .f32) (main_arg6 : FVec F S4096x64 .f32) (main_arg7 : FVec F S1x64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg4 main_arg5 main_arg6 main_arg7 main_v13 main_v16
-- ==== Kernel.lean ====
abbrev S4x4096x4096 : Shape := ⟨3, ![4, 4096, 4096]⟩
abbrev S4096x4096 : Shape := ⟨2, ![4096, 4096]⟩
abbrev S64x4096 : Shape := ⟨2, ![64, 4096]⟩
abbrev S4096x64 : Shape := ⟨2, ![4096, 64]⟩
abbrev S1x64 : Shape := ⟨2, ![1, 64]⟩
abbrev S128x4096 : Shape := ⟨2, ![128, 4096]⟩
abbrev S4096x128 : Shape := ⟨2, ![4096, 128]⟩
abbrev S_ : Shape := ⟨0, ![]⟩
abbrev S1x128 : Shape := ⟨2, ![1, 128]⟩
abbrev S1x512x512 : Shape := ⟨3, ![1, 512, 512]⟩
abbrev S4096x512 : Shape := ⟨2, ![4096, 512]⟩
abbrev S128x512 : Shape := ⟨2, ![128, 512]⟩
abbrev S1x512x4096 : Shape := ⟨3, ![1, 512, 4096]⟩
abbrev S512x4096 : Shape := ⟨2, ![512, 4096]⟩
abbrev S512x128 : Shape := ⟨2, ![512, 128]⟩
abbrev S512x512 : Shape := ⟨2, ![512, 512]⟩

abbrev nBuf : Space → Nat
  | .hbm => 23
  | .vmem => 12
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S1x64, .f32⟩
  | .hbm, ⟨5, _⟩ => ⟨S64x4096, .f32⟩
  | .hbm, ⟨6, _⟩ => ⟨S4096x64, .f32⟩
  | .hbm, ⟨7, _⟩ => ⟨S1x64, .f32⟩
  | .hbm, ⟨8, _⟩ => ⟨S128x4096, .f32⟩
  | .hbm, ⟨9, _⟩ => ⟨S4096x128, .f32⟩
  | .hbm, ⟨10, _⟩ => ⟨S_, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S_, .f32⟩
  | .hbm, ⟨15, _⟩ => ⟨S1x64, .f32⟩
  | .hbm, ⟨16, _⟩ => ⟨S1x64, .f32⟩
  | .hbm, ⟨17, _⟩ => ⟨S1x128, .f32⟩
  | .hbm, ⟨18, _⟩ => ⟨S4x4096x4096, .bf16⟩
  | .hbm, ⟨19, _⟩ => ⟨S4096x4096, .bf16⟩
  | .hbm, ⟨20, _⟩ => ⟨S128x4096, .bf16⟩
  | .hbm, ⟨21, _⟩ => ⟨S4096x128, .bf16⟩
  | .hbm, ⟨22, _⟩ => ⟨S4x4096x4096, .f32⟩
  | .local _ .vmem, ⟨0, _⟩ => ⟨S1x512x512, .bf16⟩
  | .local _ .vmem, ⟨1, _⟩ => ⟨S1x512x512, .bf16⟩
  | .local _ .vmem, ⟨2, _⟩ => ⟨S4096x512, .bf16⟩
  | .local _ .vmem, ⟨3, _⟩ => ⟨S4096x512, .bf16⟩
  | .local _ .vmem, ⟨4, _⟩ => ⟨S128x512, .bf16⟩
  | .local _ .vmem, ⟨5, _⟩ => ⟨S128x512, .bf16⟩
  | .local _ .vmem, ⟨6, _⟩ => ⟨S4096x128, .bf16⟩
  | .local _ .vmem, ⟨7, _⟩ => ⟨S1x128, .f32⟩
  | .local _ .vmem, ⟨8, _⟩ => ⟨S1x512x4096, .f32⟩
  | .local _ .vmem, ⟨9, _⟩ => ⟨S1x512x4096, .f32⟩
  | .local _ .vmem, ⟨10, _⟩ => ⟨S512x4096, .f32⟩
  | .local _ .vmem, ⟨11, _⟩ => ⟨S512x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_16 : BitVec 32 := 0#32
  let v25 : BitVec 1 := Scalar.cmpi .ne v24 c0_i32_16
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  concatenates_S64x4096_S64x4096_S128x4096_d0 : Shape.Concatenates [S64x4096, S64x4096] S128x4096 0
  concatenates_S4096x64_S4096x64_S4096x128_d1 : Shape.Concatenates [S4096x64, S4096x64] S4096x128 1
  bcast_S_S1x64 : S_.BroadcastsInDim S1x64 (![] : Fin 0 → Fin S1x64.rank)
  concatenates_S1x64_S1x64_S1x128_d1 : Shape.Concatenates [S1x64, S1x64] S1x128 1
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  transposes_S4096x512_p1_0_S512x4096 : S4096x512.Transposes [1, 0] S512x4096
  inb_S128x512_S128x512_0_0 : ∀ a, (![0, 0] : Fin 2 → Nat) a + S128x512.size a ≤ S128x512.size a
  h_S128x512 : 0 < S128x512.numel
  shapeCasts_S128x512_S128x512 : S128x512.ShapeCasts S128x512
  transposes_S128x512_p1_0_S512x128 : S128x512.Transposes [1, 0] S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  transposes_S4096x128_p1_0_S128x4096 : S4096x128.Transposes [1, 0] S128x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  dot_S512x512_S512x4096_S512x4096_1_0_0_1_n_n_wf : DotDims.WF S512x512 S512x4096 S512x4096 [1] [0] [0] [1] [] []
  dot_S512x512_S512x128_S512x128_1_0_0_1_n_n_wf : DotDims.WF S512x512 S512x128 S512x128 [1] [0] [0] [1] [] []
  dot_S512x128_S128x4096_S512x4096_1_0_0_1_n_n_wf : DotDims.WF S512x128 S128x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x4096x4096.size a
  hwx0_0 : ∀ i : grid0.Coords, EltTy.bits .bf16 = 32 ∨ (Rect.block (s := S4x4096x4096) S1x512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x4096.size a
  hwx0_2 : ∀ i : grid0.Coords, EltTy.bits .bf16 = 32 ∨ (Rect.block (s := S128x4096) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .bf16 = 32 ∨ (Rect.block (s := S4096x128) S4096x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x4096.size a ≤ S4x4096x4096.size a
  hwx0_5 : ∀ i : grid0.Coords, EltTy.bits .f32 = 32 ∨ (Rect.block (s := S4x4096x4096) S1x512x4096.size (cc0_transform_5 i) (hinb0_5 i)).WholeWords (EltTy.packing .f32)

variable [Facts₀]

def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf

abbrev win0_0 : Pipeline.Window sig grid0 :=
  Pipeline.Window.ofSpec (Memref.whole main_v8) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S64x4096 : Shape := ⟨2, ![64, 4096]⟩
abbrev S4096x64 : Shape := ⟨2, ![4096, 64]⟩
abbrev S1x64 : Shape := ⟨2, ![1, 64]⟩
abbrev S4x4096x64 : Shape := ⟨3, ![4, 4096, 64]⟩
abbrev S1x1x64 : Shape := ⟨3, ![1, 1, 64]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S64x4096, .f32⟩
  | .hbm, ⟨3, _⟩ => ⟨S4096x64, .f32⟩
  | .hbm, ⟨4, _⟩ => ⟨S1x64, .f32⟩
  | .hbm, ⟨5, _⟩ => ⟨S64x4096, .f32⟩
  | .hbm, ⟨6, _⟩ => ⟨S4096x64, .f32⟩
  | .hbm, ⟨7, _⟩ => ⟨S1x64, .f32⟩
  | .hbm, ⟨8, _⟩ => ⟨S4x4096x4096, .f32⟩
  | .hbm, ⟨9, _⟩ => ⟨S4x4096x64, .f32⟩
  | .hbm, ⟨10, _⟩ => ⟨S1x1x64, .f32⟩
  | .hbm, ⟨11, _⟩ => ⟨S4x4096x64, .f32⟩
  | .hbm, ⟨12, _⟩ => ⟨S4x4096x64, .f32⟩
  | .hbm, ⟨13, _⟩ => ⟨S4x4096x4096, .f32⟩
  | .hbm, ⟨14, _⟩ => ⟨S4x4096x64, .f32⟩
  | .hbm, ⟨15, _⟩ => ⟨S1x1x64, .f32⟩
  | .hbm, ⟨16, _⟩ => ⟨S4x4096x64, .f32⟩
  | .hbm, ⟨17, _⟩ => ⟨S4x4096x64, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S1x64_S1x1x64_1_2 : S1x64.BroadcastsInDim S1x1x64 (![1, 2] : Fin 2 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S64x4096_S4x4096x64_2_1_01_0_n_n_wf : DotDims.WF S4x4096x4096 S64x4096 S4x4096x64 [2] [1] [0, 1] [0] [] []
  dot_S4x4096x64_S4096x64_S4x4096x4096_2_1_01_0_n_n_wf : DotDims.WF S4x4096x64 S4096x64 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S64x4096_S4x4096x64_2_1_01_0_n_n : DotDims S4x4096x4096 S64x4096 S4x4096x64 where
  lhsContracting := [2]
  rhsContracting := [1]
  lhsNonContracting := [0, 1]
  rhsNonContracting := [0]
  lhsBatch := []
  rhsBatch := []
  wf := dot_S4x4096x4096_S64x4096_S4x4096x64_2_1_01_0_n_n_wf
def dot_S4x4096x64_S4096x64_S4x4096x4096_2_1_01_0_n_n : DotDims S4x4096x64 S4096x64 S4x4096x4096 where
  lhsContracting := [2]
  rhsContracting := [1]
  lhsNonContracting := [0, 1]
  rhsNonContracting := [0]
  lhsBatch := []
  rhsBatch := []
  wf := dot_S4x4096x64_S4096x64_S4x4096x4096_2_1_01_0_n_n_wf

class Facts : Prop extends Facts₀ where

variable [Facts]
-- ==== Proof.Spec.lean ====
/-
  The adapter layer's result, index by index over the extended reals, written twice over the eight argument
  arrays x [4,4096,4096], W [4096,4096], q, q' [64,4096], p, p' [4096,64], l, l' [1,64]:

  * `G`, the way the plain formula computes it:
        G[b,s,o] = Σ_d x[b,s,d]·W[o,d] + (Σ_r ((Σ_d x[b,s,d]·q[r,d])·l[0,r])·p[o,r] − Σ_r ((Σ_d x[b,s,d]·q'[r,d])·l'[0,r])·p'[o,r])·1
  * `K`, the way the fused kernel computes it: the two rank-64 paths stacked into one of rank 128 (rows of q over
    rows of q', columns of p beside columns of p', the scales l·1 beside (−l')·1), every sum over the 4096 input
    columns taken as eight partial sums over tiles of 512 columns, each started from zero:
        K[b,s,o] = (0 + Σ_{t<8} Σ_{k<512} x[b,s,512t+k]·W[o,512t+k])
                   + Σ_{j<128} ((0 + Σ_{t<8} Σ_{k<512} x[b,s,512t+k]·Q[j,512t+k])·L[j])·P[o,j].
-/
import Idealize.ShloMosaic.PureOps.Ideal
import Idealize.ShloMosaic.Lib.ValueIdx

noncomputable section

namespace Cert.Adapter

open Idealize.ShloMosaic Idealize.ShloMosaic.ValueIdx

abbrev SX : Shape := ⟨3, ![4, 4096, 4096]⟩
abbrev SW : Shape := ⟨2, ![4096, 4096]⟩
abbrev SQ : Shape := ⟨2, ![64, 4096]⟩
abbrev SP : Shape := ⟨2, ![4096, 64]⟩
abbrev SL : Shape := ⟨2, ![1, 64]⟩

/-- The f32 word of 1.0, which both programs multiply by. -/
abbrev one : EReal := Ideal.ofBits .f32 0x3F800000#32

/-- The dense term: row (b,s) of x against row o of W. -/
def dense (x : SX.Idx → EReal) (W : SW.Idx → EReal) (b : Fin 4) (s : Fin 4096) (o : Fin 4096) : EReal :=
  ∑ d : Fin 4096, x (ix3 b s d) * W (ix2 o d)

/-- One rank-64 path: project row (b,s) of x down by q, scale by l, project up by row o of p. -/
def lowRank (x : SX.Idx → EReal) (q : SQ.Idx → EReal) (l : SL.Idx → EReal) (p : SP.Idx → EReal)
    (b : Fin 4) (s : Fin 4096) (o : Fin 4096) : EReal :=
  ∑ r : Fin 64, ((∑ d : Fin 4096, x (ix3 b s d) * q (ix2 r d)) * l (ix2 (0 : Fin 1) r)) * p (ix2 o r)

/-- The plain formula. -/
def G (x : SX.Idx → EReal) (W : SW.Idx → EReal) (q : SQ.Idx → EReal) (p : SP.Idx → EReal) (l : SL.Idx → EReal)
    (q' : SQ.Idx → EReal) (p' : SP.Idx → EReal) (l' : SL.Idx → EReal) : SX.Idx → EReal := fun i =>
  dense x W (i 0) (i 1) (i 2) + (lowRank x q l p (i 0) (i 1) (i 2) - lowRank x q' l' p' (i 0) (i 1) (i 2)) * one

/-- Column `k` of the `t`-th tile of 512 input columns (the tile taken modulo 8, so that every natural names one). -/
def col (t : ℕ) (k : Fin 512) : Fin 4096 := ⟨512 * (t % 8) + k.val, by have := k.isLt; omega⟩

/-- Row `j` of the stacked down-projection: q's rows, then q''s. -/
def stackRow (q q' : SQ.Idx → EReal) (j : Fin 128) (d : Fin 4096) : EReal :=
  if h : j.val < 64 then q (ix2 ⟨j.val, h⟩ d) else q' (ix2 ⟨j.val - 64, by have := j.isLt; omega⟩ d)

/-- Column `j` of the stacked up-projection: p's columns, then p''s. -/
def stackCol (p p' : SP.Idx → EReal) (o : Fin 4096) (j : Fin 128) : EReal :=
  if h : j.val < 64 then p (ix2 o ⟨j.val, h⟩) else p' (ix2 o ⟨j.val - 64, by have := j.isLt; omega⟩)

/-- The stacked scales: l·1, then (−l')·1. -/
def stackScale (l l' : SL.Idx → EReal) (j : Fin 128) : EReal :=
  if h : j.val < 64 then l (ix2 (0 : Fin 1) ⟨j.val, h⟩) * one
  else (-(l' (ix2 (0 : Fin 1) ⟨j.val - 64, by have := j.isLt; omega⟩))) * one

/-- Row (b,s) of x against a row `w` of 4096 entries, as eight tile sums added to zero. -/
def tiled (x : SX.Idx → EReal) (b : Fin 4) (s : Fin 4096) (w : Fin 4096 → EReal) : EReal :=
  0 + ∑ t ∈ Finset.range 8, ∑ k : Fin 512, x (ix3 b s (col t k)) * w (col t k)

/-- The fused kernel's formula. -/
def K (x : SX.Idx → EReal) (W : SW.Idx → EReal) (q : SQ.Idx → EReal) (p : SP.Idx → EReal) (l : SL.Idx → EReal)
    (q' : SQ.Idx → EReal) (p' : SP.Idx → EReal) (l' : SL.Idx → EReal) : SX.Idx → EReal := fun i =>
  tiled x (i 0) (i 1) (fun d => W (ix2 (i 2) d))
    + ∑ j : Fin 128, (tiled x (i 0) (i 1) (stackRow q q' j) * stackScale l l' j) * stackCol p p' (i 2) j

/-- An array of extended reals all of whose entries are real numbers. -/
def Finite {S : Shape} (a : S.Idx → EReal) : Prop := ∀ i, a i ≠ ⊥ ∧ a i ≠ ⊤

end Cert.Adapter

end
-- ==== Proof.Law.lean ====
/-
  The two formulas of Spec.lean agree on arrays of real numbers.
-/
import proofs.«161002_j53017076302218_1_alg».proof.Proof.Spec
import Mathlib.Algebra.BigOperators.Fin
import Mathlib.Data.EReal.Operations
import Mathlib.Logic.Equiv.Fin.Basic

noncomputable section

namespace Cert.Adapter

open Idealize.ShloMosaic Idealize.ShloMosaic.ValueIdx

/-- The word 0x3F800000 has sign 0, exponent 127 and fraction 0: it denotes 2^23 · 2^(127 − 127 − 23) = 1. -/
private theorem one_eq : one = 1 := by
  simp [Ideal.ofBits, Ideal.ieee]
  rw [← EReal.coe_mul, ← EReal.coe_one, EReal.coe_eq_coe_iff]
  norm_num

/-- Eight tiles of 512 columns cover the 4096 columns exactly once: (t, k) ↦ 512·t + k is a bijection
    Fin 8 × Fin 512 ≃ Fin 4096. Holds in any commutative additive monoid. -/
private theorem tile_sum {M : Type*} [AddCommMonoid M] (f : Fin 4096 → M) :
    ∑ t ∈ Finset.range 8, ∑ k : Fin 512, f (col t k) = ∑ d : Fin 4096, f d := by
  rw [Finset.sum_range (fun t => ∑ k : Fin 512, f (col t k))]
  rw [← Fintype.sum_prod_type' (fun (t : Fin 8) (k : Fin 512) => f (col t k))]
  refine Fintype.sum_equiv (finProdFinEquiv (m := 8) (n := 512)) _ _ (fun tk => ?_)
  congr 1
  apply Fin.ext
  have h8 := tk.1.isLt
  simp only [col, finProdFinEquiv, Equiv.coe_fn_mk]
  omega

/-- A tiled row product is the plain row product: the leading zero drops and the tiles reassemble. -/
private theorem tiled_eq (x : SX.Idx → EReal) (b : Fin 4) (s : Fin 4096) (w : Fin 4096 → EReal) :
    tiled x b s w = ∑ d : Fin 4096, x (ix3 b s d) * w d := by
  unfold tiled
  rw [zero_add]
  exact tile_sum (fun d => x (ix3 b s d) * w d)

/-- A sum over the 128 stacked indices is the sum over the first 64 plus the sum over the last 64. -/
private theorem stack_sum {M : Type*} [AddCommMonoid M] (g : Fin 128 → M) :
    ∑ j : Fin 128, g j = ∑ r : Fin 64, g (Fin.castAdd 64 r) + ∑ r : Fin 64, g (Fin.natAdd 64 r) :=
  Fin.sum_univ_add (a := 64) (b := 64) g

/-- Subtracting 64 from the value 64 + r of a stacked index in the second half gives back r. -/
private theorem natAdd_sub (r : Fin 64) (h : (Fin.natAdd 64 r : Fin 128).val - 64 < 64) :
    (⟨(Fin.natAdd 64 r : Fin 128).val - 64, h⟩ : Fin 64) = r :=
  Fin.ext (by simp)

/-- A stacked index in the second half has value 64 + r, not below 64. -/
private theorem natAdd_not_lt (r : Fin 64) : ¬ (Fin.natAdd 64 r : Fin 128).val < 64 := by simp

private theorem stackRow_fst (q q' : SQ.Idx → EReal) (r : Fin 64) (d : Fin 4096) :
    stackRow q q' (Fin.castAdd 64 r) d = q (ix2 r d) := by
  unfold stackRow
  rw [dif_pos (show (Fin.castAdd 64 r : Fin 128).val < 64 from r.isLt)]
  rfl

private theorem stackRow_snd (q q' : SQ.Idx → EReal) (r : Fin 64) (d : Fin 4096) :
    stackRow q q' (Fin.natAdd 64 r) d = q' (ix2 r d) := by
  unfold stackRow
  rw [dif_neg (natAdd_not_lt r), natAdd_sub]

private theorem stackCol_fst (p p' : SP.Idx → EReal) (o : Fin 4096) (r : Fin 64) :
    stackCol p p' o (Fin.castAdd 64 r) = p (ix2 o r) := by
  unfold stackCol
  rw [dif_pos (show (Fin.castAdd 64 r : Fin 128).val < 64 from r.isLt)]
  rfl

private theorem stackCol_snd (p p' : SP.Idx → EReal) (o : Fin 4096) (r : Fin 64) :
    stackCol p p' o (Fin.natAdd 64 r) = p' (ix2 o r) := by
  unfold stackCol
  rw [dif_neg (natAdd_not_lt r), natAdd_sub]

private theorem stackScale_fst (l l' : SL.Idx → EReal) (r : Fin 64) :
    stackScale l l' (Fin.castAdd 64 r) = l (ix2 (0 : Fin 1) r) * one := by
  unfold stackScale
  rw [dif_pos (show (Fin.castAdd 64 r : Fin 128).val < 64 from r.isLt)]
  rfl

private theorem stackScale_snd (l l' : SL.Idx → EReal) (r : Fin 64) :
    stackScale l l' (Fin.natAdd 64 r) = (-(l' (ix2 (0 : Fin 1) r))) * one := by
  unfold stackScale
  rw [dif_neg (natAdd_not_lt r), natAdd_sub]

/-- The coercion ℝ → EReal commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array with no infinite entry is the coercion of an array of reals. -/
private theorem exists_real {S : Shape} {a : S.Idx → EReal} (h : Finite a) :
    ∃ r : S.Idx → ℝ, a = fun i => (r i : EReal) :=
  ⟨fun i => (a i).toReal, funext fun i => (EReal.coe_toReal (h i).2 (h i).1).symm⟩

/-- The law at one output index (b, s, o). -/
private theorem law_at (x : SX.Idx → EReal) (W : SW.Idx → EReal) (q : SQ.Idx → EReal) (p : SP.Idx → EReal) (l : SL.Idx → EReal)
    (q' : SQ.Idx → EReal) (p' : SP.Idx → EReal) (l' : SL.Idx → EReal)
    (hx : Finite x) (hW : Finite W) (hq : Finite q) (hp : Finite p) (hl : Finite l)
    (hq' : Finite q') (hp' : Finite p') (hl' : Finite l') (b : Fin 4) (s : Fin 4096) (o : Fin 4096) :
    tiled x b s (fun d => W (ix2 o d))
        + ∑ j : Fin 128, (tiled x b s (stackRow q q' j) * stackScale l l' j) * stackCol p p' o j
      = dense x W b s o + (lowRank x q l p b s o - lowRank x q' l' p' b s o) * one := by
  -- Tiles and stack: valid over the extended reals as they stand.
  simp only [dense, lowRank, tiled_eq]
  rw [stack_sum]
  simp only [stackRow_fst, stackRow_snd, stackCol_fst, stackCol_snd, stackScale_fst, stackScale_snd, one_eq, mul_one]
  -- The sign: every entry is a real number, so the identity is one between real numbers.
  obtain ⟨xr, rfl⟩ := exists_real hx
  obtain ⟨Wr, rfl⟩ := exists_real hW
  obtain ⟨qr, rfl⟩ := exists_real hq
  obtain ⟨pr, rfl⟩ := exists_real hp
  obtain ⟨lr, rfl⟩ := exists_real hl
  obtain ⟨qr', rfl⟩ := exists_real hq'
  obtain ⟨pr', rfl⟩ := exists_real hp'
  obtain ⟨lr', rfl⟩ := exists_real hl'
  simp only [← EReal.coe_mul, ← EReal.coe_neg, ← coe_sum, ← EReal.coe_add, ← EReal.coe_sub]
  rw [EReal.coe_eq_coe_iff]
  simp only [mul_neg, neg_mul, Finset.sum_neg_distrib]
  ring

theorem K_eq_G (x : SX.Idx → EReal) (W : SW.Idx → EReal) (q : SQ.Idx → EReal) (p : SP.Idx → EReal) (l : SL.Idx → EReal)
    (q' : SQ.Idx → EReal) (p' : SP.Idx → EReal) (l' : SL.Idx → EReal)
    (hx : Finite x) (hW : Finite W) (hq : Finite q) (hp : Finite p) (hl : Finite l)
    (hq' : Finite q') (hp' : Finite p') (hl' : Finite l') :
    K x W q p l q' p' l' = G x W q p l q' p' l' := by
  funext i
  exact law_at x W q p l q' p' l' hx hW hq hp hl hq' hp' hl' (i 0) (i 1) (i 2)

end Cert.Adapter

end
-- ==== Proof.RefValue.lean ====
/-
  The reference program's result, stage by stage, is the plain formula `G` of Spec.lean.

  The reference computes a dense product x·Wᵀ, two rank-64 products (x·qᵀ scaled entry by entry by a row l broadcast
  over the batch and sequence axes, then multiplied by pᵀ), their difference times the constant 1, and the sum of
  the dense product with that. Each contraction is read as a finite sum at an index; what remains is to see that
  the index at which each operand is read is the one the formula names: row (b, s) of x, row o of W, row r of q,
  entry (0, r) of l, entry (o, r) of p.
-/
import proofs.«161002_j53017076302218_1_alg».proof.Proof.Spec
import proofs.«161002_j53017076302218_1_alg».proof.Proof.Gen.ReferenceIdeal.Read

noncomputable section

namespace Cert.ReferenceIdeal.RefValue

open Cert.ReferenceIdeal Cert.ReferenceIdeal.Gen Idealize.ShloMosaic Idealize.ShloMosaic.TcCoe Idealize.ShloMosaic.ValueIdx

/-! ### Where the operands are read

  For an output index `i = (b, s, o)`, a contracted column `d` and a rank index `r`. -/

/-- The dense product reads x at (b, s, d). -/
theorem dense_left (i : S4x4096x4096.Idx) (d : Fin 4096) :
    Read.lidx_main_v0 i d = ix3 (n0 := 4) (n1 := 4096) (n2 := 4096) (i 0) (i 1) d :=
  funext fun a => by match a with | ⟨0, _⟩ => rfl | ⟨1, _⟩ => rfl | ⟨2, _⟩ => rfl

/-- The dense product reads W at (o, d). -/
theorem dense_right (i : S4x4096x4096.Idx) (d : Fin 4096) :
    Read.ridx_main_v0 i d = ix2 (n0 := 4096) (n1 := 4096) (i 2) d :=
  funext fun a => by match a with | ⟨0, _⟩ => rfl | ⟨1, _⟩ => rfl

/-- The first path's down-projection, at (b, s, r), reads x at (b, s, d). -/
theorem down_left (i : S4x4096x4096.Idx) (r : Fin 64) (d : Fin 4096) :
    Read.lidx_main_v1 (Read.lidx_main_v5 i r) d = ix3 (n0 := 4) (n1 := 4096) (n2 := 4096) (i 0) (i 1) d :=
  funext fun a => by match a with | ⟨0, _⟩ => rfl | ⟨1, _⟩ => rfl | ⟨2, _⟩ => rfl

/-- The first path's down-projection, at (b, s, r), reads q at (r, d). -/
theorem down_right (i : S4x4096x4096.Idx) (r : Fin 64) (d : Fin 4096) :
    Read.ridx_main_v1 (Read.lidx_main_v5 i r) d = ix2 (n0 := 64) (n1 := 4096) r d :=
  funext fun a => by match a with | ⟨0, _⟩ => rfl | ⟨1, _⟩ => rfl

/-- The first path's scale, broadcast twice, is read at (0, r). -/
theorem scale_at (i : S4x4096x4096.Idx) (r : Fin 64) :
    Read.idx_main_v2 (Read.idx_main_v3 (Read.lidx_main_v5 i r)) = ix2 (n0 := 1) (n1 := 64) (0 : Fin 1) r :=
  funext fun a => by match a with | ⟨0, _⟩ => rfl | ⟨1, _⟩ => rfl

/-- The first path's up-projection reads p at (o, r). -/
theorem up_right (i : S4x4096x4096.Idx) (r : Fin 64) :
    Read.ridx_main_v5 i r = ix2 (n0 := 4096) (n1 := 64) (i 2) r :=
  funext fun a => by match a with | ⟨0, _⟩ => rfl | ⟨1, _⟩ => rfl

/-- The second path's down-projection, at (b, s, r), reads x at (b, s, d). -/
theorem down_left' (i : S4x4096x4096.Idx) (r : Fin 64) (d : Fin 4096) :
    Read.lidx_main_v6 (Read.lidx_main_v10 i r) d = ix3 (n0 := 4) (n1 := 4096) (n2 := 4096) (i 0) (i 1) d :=
  funext fun a => by match a with | ⟨0, _⟩ => rfl | ⟨1, _⟩ => rfl | ⟨2, _⟩ => rfl

/-- The second path's down-projection, at (b, s, r), reads q' at (r, d). -/
theorem down_right' (i : S4x4096x4096.Idx) (r : Fin 64) (d : Fin 4096) :
    Read.ridx_main_v6 (Read.lidx_main_v10 i r) d = ix2 (n0 := 64) (n1 := 4096) r d :=
  funext fun a => by match a with | ⟨0, _⟩ => rfl | ⟨1, _⟩ => rfl

/-- The second path's scale, broadcast twice, is read at (0, r). -/
theorem scale_at' (i : S4x4096x4096.Idx) (r : Fin 64) :
    Read.idx_main_v7 (Read.idx_main_v8 (Read.lidx_main_v10 i r)) = ix2 (n0 := 1) (n1 := 64) (0 : Fin 1) r :=
  funext fun a => by match a with | ⟨0, _⟩ => rfl | ⟨1, _⟩ => rfl

/-- The second path's up-projection reads p' at (o, r). -/
theorem up_right' (i : S4x4096x4096.Idx) (r : Fin 64) :
    Read.ridx_main_v10 i r = ix2 (n0 := 4096) (n1 := 64) (i 2) r :=
  funext fun a => by match a with | ⟨0, _⟩ => rfl | ⟨1, _⟩ => rfl

/-! ### The two rank-64 paths and the dense term -/

/-- The dense stage at (b, s, o) is the formula's dense term. -/
theorem dense_stage (x0 : (⟨S4x4096x4096, .f32⟩ : BufTy).Contents (Elt Ideal)) (x1 : (⟨S4096x4096, .f32⟩ : BufTy).Contents (Elt Ideal))
    (i : S4x4096x4096.Idx) :
    Read.val_main_v0 (F := Ideal) x0 x1 i = Cert.Adapter.dense x0 x1 (i 0) (i 1) (i 2) := by
  rw [Read.val_main_v0_apply]
  unfold Cert.Adapter.dense
  exact Finset.sum_congr rfl fun d _ => by rw [dense_left, dense_right]

/-- The first path's last stage at (b, s, o) is the formula's rank-64 term over q, l, p. -/
theorem path_stage (x0 : (⟨S4x4096x4096, .f32⟩ : BufTy).Contents (Elt Ideal)) (x2 : (⟨S64x4096, .f32⟩ : BufTy).Contents (Elt Ideal))
    (x3 : (⟨S4096x64, .f32⟩ : BufTy).Contents (Elt Ideal)) (x4 : (⟨S1x64, .f32⟩ : BufTy).Contents (Elt Ideal))
    (i : S4x4096x4096.Idx) :
    Read.val_main_v5 (F := Ideal) x0 x2 x3 x4 i = Cert.Adapter.lowRank x0 x2 x4 x3 (i 0) (i 1) (i 2) := by
  rw [Read.val_main_v5_apply]
  unfold Cert.Adapter.lowRank
  refine Finset.sum_congr rfl fun r _ => ?_
  rw [Read.val_main_v4_apply, Read.val_main_v1_apply, Read.val_main_v3_apply, Read.val_main_v2_apply, Ideal.mulf_def,
    scale_at, up_right]
  congr 2
  exact Finset.sum_congr rfl fun d _ => by rw [down_left, down_right]

/-- The second path's last stage at (b, s, o) is the formula's rank-64 term over q', l', p'. -/
theorem path_stage' (x0 : (⟨S4x4096x4096, .f32⟩ : BufTy).Contents (Elt Ideal)) (x5 : (⟨S64x4096, .f32⟩ : BufTy).Contents (Elt Ideal))
    (x6 : (⟨S4096x64, .f32⟩ : BufTy).Contents (Elt Ideal)) (x7 : (⟨S1x64, .f32⟩ : BufTy).Contents (Elt Ideal))
    (i : S4x4096x4096.Idx) :
    Read.val_main_v10 (F := Ideal) x0 x5 x6 x7 i = Cert.Adapter.lowRank x0 x5 x7 x6 (i 0) (i 1) (i 2) := by
  rw [Read.val_main_v10_apply]
  unfold Cert.Adapter.lowRank
  refine Finset.sum_congr rfl fun r _ => ?_
  rw [Read.val_main_v9_apply, Read.val_main_v6_apply, Read.val_main_v8_apply, Read.val_main_v7_apply, Ideal.mulf_def,
    scale_at', up_right']
  congr 2
  exact Finset.sum_congr rfl fun d _ => by rw [down_left', down_right']

/-! ### The whole reference -/

theorem ref_eq_G (x0 : (⟨S4x4096x4096, .f32⟩ : BufTy).Contents (Elt Ideal)) (x1 : (⟨S4096x4096, .f32⟩ : BufTy).Contents (Elt Ideal))
    (x2 : (⟨S64x4096, .f32⟩ : BufTy).Contents (Elt Ideal)) (x3 : (⟨S4096x64, .f32⟩ : BufTy).Contents (Elt Ideal))
    (x4 : (⟨S1x64, .f32⟩ : BufTy).Contents (Elt Ideal)) (x5 : (⟨S64x4096, .f32⟩ : BufTy).Contents (Elt Ideal))
    (x6 : (⟨S4096x64, .f32⟩ : BufTy).Contents (Elt Ideal)) (x7 : (⟨S1x64, .f32⟩ : BufTy).Contents (Elt Ideal)) :
    Cert.ReferenceIdeal.Read.val_main_v14 (F := Ideal) x0 x1 x2 x3 x4 x5 x6 x7 = Cert.Adapter.G x0 x1 x2 x3 x4 x5 x6 x7 := by
  funext i
  rw [Read.val_main_v14_apply, Read.val_main_v13_apply, Read.val_main_v12_apply, Read.val_main_cst_apply,
    Read.val_main_v11_apply, dense_stage, path_stage, path_stage', Ideal.addf_def, Ideal.mulf_def, Ideal.subf_def,
    Ideal.ofBits_def]
  rfl

end Cert.ReferenceIdeal.RefValue

end
-- ==== Proof.Finite.lean ====
/-
  The precondition (every entry of every argument array has absolute value below +inf) says that every entry is a
  real number.

  The printed predicate is a conjunction, over the eight arrays, of "the `and` over all entries of |a| < +inf".
  A conjunction of `i1` words that is 1 has every conjunct 1; an `and` over all entries that is 1 has 1 at every
  entry; and on the extended reals |x| = max x (−x) < ⊤ holds exactly when x is neither ⊥ nor ⊤.
-/
import proofs.«161002_j53017076302218_1_alg».proof.Proof.Spec
import proofs.«161002_j53017076302218_1_alg».proof.Pre_finite_inputs
import Idealize.ShloMosaic.Lib.ReduceAll

noncomputable section

namespace Cert.Adapter

open Idealize.ShloMosaic Idealize.ShloMosaic.ValueIdx

/-- The scalar shape has exactly one index. -/
instance scalarIdx_subsingleton : Subsingleton Cert.Pre_finite_inputs.S_.Idx :=
  ⟨fun _ _ => funext fun d => d.elim0⟩

/-- An extended real whose absolute value `max x (−x)` lies below `⊤` is neither infinity. -/
theorem ne_bot_top_of_abs_lt_top (x : EReal) (h : max x (-x) < ⊤) : x ≠ ⊥ ∧ x ≠ ⊤ := by
  obtain ⟨hx, hnx⟩ := max_lt_iff.1 h
  refine ⟨fun hb => ?_, hx.ne⟩
  rw [hb, EReal.neg_bot] at hnx
  exact lt_irrefl _ hnx

/-- The f32 word 0x7F800000 denotes +∞. -/
theorem inf_word : Ideal.ofBits .f32 0x7F800000#32 = (⊤ : EReal) := by
  simp [Ideal.ofBits, Ideal.ieee]

/-- One element: if the test `|x| < +inf` answers 1 then `x` is a real number. -/
theorem real_of_test (x : EReal)
    (h : FloatOps.cmpf (F := Ideal) (φ := .f32) .olt (FloatOps.hostAbsf (F := Ideal) (φ := .f32) x)
      (FloatOps.ofBits (F := Ideal) .f32 0x7F800000#32) = 1#1) : x ≠ ⊥ ∧ x ≠ ⊤ := by
  refine ne_bot_top_of_abs_lt_top x ?_
  by_contra hn
  have e : FloatOps.cmpf (F := Ideal) (φ := .f32) .olt (FloatOps.hostAbsf (F := Ideal) (φ := .f32) x)
      (FloatOps.ofBits (F := Ideal) .f32 0x7F800000#32) = BitVec.ofBool (decide (max x (-x) < ⊤)) := by
    show Ideal.cmp .olt (max x (-x)) (Ideal.ofBits .f32 0x7F800000#32) = _
    rw [inf_word]
    rfl
  rw [e, decide_eq_false hn] at h
  exact absurd h (by decide)

/-- One array, of any shape: if the `and` over all entries of `|a| < +inf` is 1, every entry is a real number. -/
theorem finite_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
        (cmpf .olt (Host.absf a) (broadcastInDim S ![] hb (constant Cert.Pre_finite_inputs.S_ .f32 0x7F800000#32)))
        (constantI Cert.Pre_finite_inputs.S_ 1 1#1) hr hu ix0 = 1#1) : Finite a := fun i =>
  real_of_test (a i) (Host.reduce_andi_all _ _ hr hu ix0 e i)

/-- A conjunction of two `i1` arrays that is 1 at an index has both conjuncts 1 there. -/
theorem both_of_andi {s : Shape} (x y : IVec s 1) (i : s.Idx) (h : andi x y i = 1#1) : x i = 1#1 ∧ y i = 1#1 :=
  IntOp.andi_eq_one.1 (show IntOp.andi (x i) (y i) = 1#1 from h)

theorem finite_of_pre [Cert.Pre_finite_inputs.Facts]
    (a0 : FVec Ideal Cert.Pre_finite_inputs.S4x4096x4096 .f32) (a1 : FVec Ideal Cert.Pre_finite_inputs.S4096x4096 .f32)
    (a2 : FVec Ideal Cert.Pre_finite_inputs.S64x4096 .f32) (a3 : FVec Ideal Cert.Pre_finite_inputs.S4096x64 .f32)
    (a4 : FVec Ideal Cert.Pre_finite_inputs.S1x64 .f32) (a5 : FVec Ideal Cert.Pre_finite_inputs.S64x4096 .f32)
    (a6 : FVec Ideal Cert.Pre_finite_inputs.S4096x64 .f32) (a7 : FVec Ideal Cert.Pre_finite_inputs.S1x64 .f32)
    (h : Cert.Pre_finite_inputs.fn (F := Ideal) a0 a1 a2 a3 a4 a5 a6 a7 = fun _ => 1#1) :
    Finite a0 ∧ Finite a1 ∧ Finite a2 ∧ Finite a3 ∧ Finite a4 ∧ Finite a5 ∧ Finite a6 ∧ Finite a7 := by
  have h0 := congrFun h ix0
  dsimp only [Cert.Pre_finite_inputs.fn, Cert.Pre_finite_inputs.fn_part1, Cert.Pre_finite_inputs.fn_part2] at h0
  obtain ⟨h0, e7⟩ := both_of_andi _ _ _ h0
  obtain ⟨h0, e6⟩ := both_of_andi _ _ _ h0
  obtain ⟨h0, e5⟩ := both_of_andi _ _ _ h0
  obtain ⟨h0, e4⟩ := both_of_andi _ _ _ h0
  obtain ⟨h0, e3⟩ := both_of_andi _ _ _ h0
  obtain ⟨h0, e2⟩ := both_of_andi _ _ _ h0
  obtain ⟨e0, e1⟩ := both_of_andi _ _ _ h0
  exact ⟨finite_of_all a0 _ _ _ e0, finite_of_all a1 _ _ _ e1, finite_of_all a2 _ _ _ e2, finite_of_all a3 _ _ _ e3,
    finite_of_all a4 _ _ _ e4, finite_of_all a5 _ _ _ e5, finite_of_all a6 _ _ _ e6, finite_of_all a7 _ _ _ e7⟩

end Cert.Adapter

end
-- ==== Proof.Pieces.lean ====
/-
  What each control case of the kernel body leaves behind, as the body's own arithmetic: the dense accumulator is
  the old accumulator (zero at the first column tile) plus the tile's product with the dense weights, the low-rank
  accumulator likewise with the stacked down-projection, and at the last column tile the output block is the dense
  accumulator plus the scaled low-rank accumulator projected up.
-/
import proofs.«161002_j53017076302218_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem orgA (c : Dev nD) (i : grid0.Coords) (arg3 : Memref sig .tc .vmem S1x512x512 .bf16) (harg3 : arg3.IsWhole) (arg4 : Memref sig .tc .vmem S4096x512 .bf16) (harg4 : arg4.IsWhole) (arg5 : Memref sig .tc .vmem S128x512 .bf16) (harg5 : arg5.IsWhole) (arg6 : Memref sig .tc .vmem S4096x128 .bf16) (harg6 : arg6.IsWhole) (arg7 : Memref sig .tc .vmem S1x128 .f32) (harg7 : arg7.IsWhole) (arg8 : Memref sig .tc .vmem S1x512x4096 .f32) (harg8 : arg8.IsWhole) (arg9 : Memref sig .tc .vmem S512x4096 .f32) (harg9 : arg9.IsWhole) (arg10 : Memref sig .tc .vmem S512x128 .f32) (harg10 : arg10.IsWhole) (hc0 : cond0_0 i) (hc1 : ¬cond0_1 i) (x0 : Vec F S1x512x512 .bf16) (x1 : Vec F S4096x512 .bf16) (x2 : Vec F S128x512 .bf16) (x3 : Vec F S4096x128 .bf16) (x4 : Vec F S1x128 .f32) :
    sout0_A_0 c i arg3 harg3 arg4 harg4 arg5 harg5 arg6 harg6 arg7 harg7 arg8 harg8 arg9 harg9 arg10 harg10 hc0 hc1 x0 x1 x2 x3 x4 = k0_pay4 x0 (k0_pay1 (F := F)) x1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x4096) hz2, View.readCov_unit_zero (S := S512x4096) _ hz2]
  simp only [View.readAt_eq_ld, harg3.read_unread, harg4.read_unread, harg5.read_unread, harg6.read_unread, harg7.read_unread, harg9.read_unread, harg10.read_unread, View.ld_unit_zero (S := S1x512x512) hz3, View.ld_unit_zero (S := S512x4096) hz2, View.ld_unit_zero (S := S4096x512) hz2, View.ld_unit_zero (S := S128x512) hz2, View.ld_unit_zero (S := S512x128) hz2, View.ld_unit_zero (S := S4096x128) hz2, View.ld_unit_zero (S := S1x128) hz2, View.ld_unit_zero (S := S1x512x4096) hz3]

theorem orgB (c : Dev nD) (i : grid0.Coords) (arg3 : Memref sig .tc .vmem S1x512x512 .bf16) (harg3 : arg3.IsWhole) (arg4 : Memref sig .tc .vmem S4096x512 .bf16) (harg4 : arg4.IsWhole) (arg5 : Memref sig .tc .vmem S128x512 .bf16) (harg5 : arg5.IsWhole) (arg6 : Memref sig .tc .vmem S4096x128 .bf16) (harg6 : arg6.IsWhole) (arg7 : Memref sig .tc .vmem S1x128 .f32) (harg7 : arg7.IsWhole) (arg8 : Memref sig .tc .vmem S1x512x4096 .f32) (harg8 : arg8.IsWhole) (arg9 : Memref sig .tc .vmem S512x4096 .f32) (harg9 : arg9.IsWhole) (arg10 : Memref sig .tc .vmem S512x128 .f32) (harg10 : arg10.IsWhole) (hc0 : ¬cond0_0 i) (hc1 : ¬cond0_1 i) (x0 : Vec F S1x512x512 .bf16) (x1 : Vec F S4096x512 .bf16) (x2 : Vec F S128x512 .bf16) (x3 : Vec F S4096x128 .bf16) (x4 : Vec F S1x128 .f32) (xs0 : Vec F S512x4096 .f32) (xs1 : Vec F S512x128 .f32) :
    sout0_B_0 c i arg3 harg3 arg4 harg4 arg5 harg5 arg6 harg6 arg7 harg7 arg8 harg8 arg9 harg9 arg10 harg10 hc0 hc1 x0 x1 x2 x3 x4 xs0 xs1 = k0_pay4 x0 xs0 x1 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz2]
  simp only [View.readAt_eq_ld, harg3.read_unread, harg4.read_unread, harg5.read_unread, harg6.read_unread, harg7.read_unread, harg9.read_unread, harg10.read_unread, View.ld_unit_zero (S := S1x512x512) hz3, View.ld_unit_zero (S := S512x4096) hz2, View.ld_unit_zero (S := S4096x512) hz2, View.ld_unit_zero (S := S128x512) hz2, View.ld_unit_zero (S := S512x128) hz2, View.ld_unit_zero (S := S4096x128) hz2, View.ld_unit_zero (S := S1x128) hz2, View.ld_unit_zero (S := S1x512x4096) hz3]

theorem orgC (c : Dev nD) (i : grid0.Coords) (arg3 : Memref sig .tc .vmem S1x512x512 .bf16) (harg3 : arg3.IsWhole) (arg4 : Memref sig .tc .vmem S4096x512 .bf16) (harg4 : arg4.IsWhole) (arg5 : Memref sig .tc .vmem S128x512 .bf16) (harg5 : arg5.IsWhole) (arg6 : Memref sig .tc .vmem S4096x128 .bf16) (harg6 : arg6.IsWhole) (arg7 : Memref sig .tc .vmem S1x128 .f32) (harg7 : arg7.IsWhole) (arg8 : Memref sig .tc .vmem S1x512x4096 .f32) (harg8 : arg8.IsWhole) (arg9 : Memref sig .tc .vmem S512x4096 .f32) (harg9 : arg9.IsWhole) (arg10 : Memref sig .tc .vmem S512x128 .f32) (harg10 : arg10.IsWhole) (hc0 : ¬cond0_0 i) (hc1 : cond0_1 i) (x0 : Vec F S1x512x512 .bf16) (x1 : Vec F S4096x512 .bf16) (x2 : Vec F S128x512 .bf16) (x3 : Vec F S4096x128 .bf16) (x4 : Vec F S1x128 .f32) (xs0 : Vec F S512x4096 .f32) (xs1 : Vec F S512x128 .f32) :
    sout0_C_0 c i arg3 harg3 arg4 harg4 arg5 harg5 arg6 harg6 arg7 harg7 arg8 harg8 arg9 harg9 arg10 harg10 hc0 hc1 x0 x1 x2 x3 x4 xs0 xs1 = k0_pay4 x0 xs0 x1 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz2]
  simp only [View.readAt_eq_ld, harg3.read_unread, harg4.read_unread, harg5.read_unread, harg6.read_unread, harg7.read_unread, harg9.read_unread, harg10.read_unread, View.ld_unit_zero (S := S1x512x512) hz3, View.ld_unit_zero (S := S512x4096) hz2, View.ld_unit_zero (S := S4096x512) hz2, View.ld_unit_zero (S := S128x512) hz2, View.ld_unit_zero (S := S512x128) hz2, View.ld_unit_zero (S := S4096x128) hz2, View.ld_unit_zero (S := S1x128) hz2, View.ld_unit_zero (S := S1x512x4096) hz3]

theorem lowA (c : Dev nD) (i : grid0.Coords) (arg3 : Memref sig .tc .vmem S1x512x512 .bf16) (harg3 : arg3.IsWhole) (arg4 : Memref sig .tc .vmem S4096x512 .bf16) (harg4 : arg4.IsWhole) (arg5 : Memref sig .tc .vmem S128x512 .bf16) (harg5 : arg5.IsWhole) (arg6 : Memref sig .tc .vmem S4096x128 .bf16) (harg6 : arg6.IsWhole) (arg7 : Memref sig .tc .vmem S1x128 .f32) (harg7 : arg7.IsWhole) (arg8 : Memref sig .tc .vmem S1x512x4096 .f32) (harg8 : arg8.IsWhole) (arg9 : Memref sig .tc .vmem S512x4096 .f32) (harg9 : arg9.IsWhole) (arg10 : Memref sig .tc .vmem S512x128 .f32) (harg10 : arg10.IsWhole) (hc0 : cond0_0 i) (hc1 : ¬cond0_1 i) (x0 : Vec F S1x512x512 .bf16) (x1 : Vec F S4096x512 .bf16) (x2 : Vec F S128x512 .bf16) (x3 : Vec F S4096x128 .bf16) (x4 : Vec F S1x128 .f32) :
    sout0_A_1 c i arg3 harg3 arg4 harg4 arg5 harg5 arg6 harg6 arg7 harg7 arg8 harg8 arg9 harg9 arg10 harg10 hc0 hc1 x0 x1 x2 x3 x4 = k0_pay5 x0 (k0_pay2 (F := F)) x2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x128) hz2, View.readCov_unit_zero (S := S512x128) _ hz2]
  simp only [View.readAt_eq_ld, harg3.read_unread, harg4.read_unread, harg5.read_unread, harg6.read_unread, harg7.read_unread, harg9.read_unread, harg10.read_unread, View.ld_unit_zero (S := S1x512x512) hz3, View.ld_unit_zero (S := S512x4096) hz2, View.ld_unit_zero (S := S4096x512) hz2, View.ld_unit_zero (S := S128x512) hz2, View.ld_unit_zero (S := S512x128) hz2, View.ld_unit_zero (S := S4096x128) hz2, View.ld_unit_zero (S := S1x128) hz2, View.ld_unit_zero (S := S1x512x4096) hz3]

theorem lowB (c : Dev nD) (i : grid0.Coords) (arg3 : Memref sig .tc .vmem S1x512x512 .bf16) (harg3 : arg3.IsWhole) (arg4 : Memref sig .tc .vmem S4096x512 .bf16) (harg4 : arg4.IsWhole) (arg5 : Memref sig .tc .vmem S128x512 .bf16) (harg5 : arg5.IsWhole) (arg6 : Memref sig .tc .vmem S4096x128 .bf16) (harg6 : arg6.IsWhole) (arg7 : Memref sig .tc .vmem S1x128 .f32) (harg7 : arg7.IsWhole) (arg8 : Memref sig .tc .vmem S1x512x4096 .f32) (harg8 : arg8.IsWhole) (arg9 : Memref sig .tc .vmem S512x4096 .f32) (harg9 : arg9.IsWhole) (arg10 : Memref sig .tc .vmem S512x128 .f32) (harg10 : arg10.IsWhole) (hc0 : ¬cond0_0 i) (hc1 : ¬cond0_1 i) (x0 : Vec F S1x512x512 .bf16) (x1 : Vec F S4096x512 .bf16) (x2 : Vec F S128x512 .bf16) (x3 : Vec F S4096x128 .bf16) (x4 : Vec F S1x128 .f32) (xs0 : Vec F S512x4096 .f32) (xs1 : Vec F S512x128 .f32) :
    sout0_B_1 c i arg3 harg3 arg4 harg4 arg5 harg5 arg6 harg6 arg7 harg7 arg8 harg8 arg9 harg9 arg10 harg10 hc0 hc1 x0 x1 x2 x3 x4 xs0 xs1 = k0_pay5 x0 xs1 x2 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz2]
  simp only [View.readAt_eq_ld, harg3.read_unread, harg4.read_unread, harg5.read_unread, harg6.read_unread, harg7.read_unread, harg9.read_unread, harg10.read_unread, View.ld_unit_zero (S := S1x512x512) hz3, View.ld_unit_zero (S := S512x4096) hz2, View.ld_unit_zero (S := S4096x512) hz2, View.ld_unit_zero (S := S128x512) hz2, View.ld_unit_zero (S := S512x128) hz2, View.ld_unit_zero (S := S4096x128) hz2, View.ld_unit_zero (S := S1x128) hz2, View.ld_unit_zero (S := S1x512x4096) hz3]

theorem lowC (c : Dev nD) (i : grid0.Coords) (arg3 : Memref sig .tc .vmem S1x512x512 .bf16) (harg3 : arg3.IsWhole) (arg4 : Memref sig .tc .vmem S4096x512 .bf16) (harg4 : arg4.IsWhole) (arg5 : Memref sig .tc .vmem S128x512 .bf16) (harg5 : arg5.IsWhole) (arg6 : Memref sig .tc .vmem S4096x128 .bf16) (harg6 : arg6.IsWhole) (arg7 : Memref sig .tc .vmem S1x128 .f32) (harg7 : arg7.IsWhole) (arg8 : Memref sig .tc .vmem S1x512x4096 .f32) (harg8 : arg8.IsWhole) (arg9 : Memref sig .tc .vmem S512x4096 .f32) (harg9 : arg9.IsWhole) (arg10 : Memref sig .tc .vmem S512x128 .f32) (harg10 : arg10.IsWhole) (hc0 : ¬cond0_0 i) (hc1 : cond0_1 i) (x0 : Vec F S1x512x512 .bf16) (x1 : Vec F S4096x512 .bf16) (x2 : Vec F S128x512 .bf16) (x3 : Vec F S4096x128 .bf16) (x4 : Vec F S1x128 .f32) (xs0 : Vec F S512x4096 .f32) (xs1 : Vec F S512x128 .f32) :
    sout0_C_1 c i arg3 harg3 arg4 harg4 arg5 harg5 arg6 harg6 arg7 harg7 arg8 harg8 arg9 harg9 arg10 harg10 hc0 hc1 x0 x1 x2 x3 x4 xs0 xs1 = k0_pay5 x0 xs1 x2 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz2]
  simp only [View.readAt_eq_ld, harg3.read_unread, harg4.read_unread, harg5.read_unread, harg6.read_unread, harg7.read_unread, harg9.read_unread, harg10.read_unread, View.ld_unit_zero (S := S1x512x512) hz3, View.ld_unit_zero (S := S512x4096) hz2, View.ld_unit_zero (S := S4096x512) hz2, View.ld_unit_zero (S := S128x512) hz2, View.ld_unit_zero (S := S512x128) hz2, View.ld_unit_zero (S := S4096x128) hz2, View.ld_unit_zero (S := S1x128) hz2, View.ld_unit_zero (S := S1x512x4096) hz3]

theorem outC (c : Dev nD) (i : grid0.Coords) (arg3 : Memref sig .tc .vmem S1x512x512 .bf16) (harg3 : arg3.IsWhole) (arg4 : Memref sig .tc .vmem S4096x512 .bf16) (harg4 : arg4.IsWhole) (arg5 : Memref sig .tc .vmem S128x512 .bf16) (harg5 : arg5.IsWhole) (arg6 : Memref sig .tc .vmem S4096x128 .bf16) (harg6 : arg6.IsWhole) (arg7 : Memref sig .tc .vmem S1x128 .f32) (harg7 : arg7.IsWhole) (arg8 : Memref sig .tc .vmem S1x512x4096 .f32) (harg8 : arg8.IsWhole) (arg9 : Memref sig .tc .vmem S512x4096 .f32) (harg9 : arg9.IsWhole) (arg10 : Memref sig .tc .vmem S512x128 .f32) (harg10 : arg10.IsWhole) (hc0 : ¬cond0_0 i) (hc1 : cond0_1 i) (x0 : Vec F S1x512x512 .bf16) (x1 : Vec F S4096x512 .bf16) (x2 : Vec F S128x512 .bf16) (x3 : Vec F S4096x128 .bf16) (x4 : Vec F S1x128 .f32) (xs0 : Vec F S512x4096 .f32) (xs1 : Vec F S512x128 .f32) :
    out0_C_5 c i arg3 harg3 arg4 harg4 arg5 harg5 arg6 harg6 arg7 harg7 arg8 harg8 arg9 harg9 arg10 harg10 hc0 hc1 x0 x1 x2 x3 x4 xs0 xs1 = k0_pay6 (k0_pay5 x0 xs1 x2) x4 x3 (k0_pay4 x0 xs0 x1) := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  simp only [View.readAt_eq_ld, harg3.read_unread, harg4.read_unread, harg5.read_unread, harg6.read_unread, harg7.read_unread, harg9.read_unread, harg10.read_unread, View.ld_unit_zero (S := S1x512x512) hz3, View.ld_unit_zero (S := S512x4096) hz2, View.ld_unit_zero (S := S4096x512) hz2, View.ld_unit_zero (S := S128x512) hz2, View.ld_unit_zero (S := S512x128) hz2, View.ld_unit_zero (S := S4096x128) hz2, View.ld_unit_zero (S := S1x128) hz2, View.ld_unit_zero (S := S1x512x4096) hz3,
    View.readCov_unit_zero (S := S512x128) _ hz2, View.readCov_unit_zero (S := S512x4096) _ hz2]

end Cert.KernelIdeal.Pieces
end
-- ==== Proof.Payload.lean ====
/-
  The kernel body's arithmetic read at one index over the extended reals: each accumulator update adds to the old
  entry the inner product of a row of the x tile with a row of the weight tile, and the final step adds to the dense
  accumulator the inner product of the scaled low-rank row with a row of the stacked up-projection.
-/
import proofs.«161002_j53017076302218_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-! ## The three contractions' operand indices, one axis at a time -/

theorem lhs_dense_0 (i : S512x4096.Idx) (q : dot_S512x512_S512x4096_S512x4096_1_0_0_1_n_n.contr.Idx) :
    (dot_S512x512_S512x4096_S512x4096_1_0_0_1_n_n.lhsIdx i q 0).val = (i 0).val := by
  unfold DotDims.lhsIdx
  rw [dif_neg (show ¬(0 : Fin S512x512.rank) ∈ dot_S512x512_S512x4096_S512x4096_1_0_0_1_n_n.lhsBatch by decide), dif_pos (show (0 : Fin S512x512.rank) ∈ dot_S512x512_S512x4096_S512x4096_1_0_0_1_n_n.lhsNonContracting by decide)]
  rfl
theorem lhs_dense_1 (i : S512x4096.Idx) (q : dot_S512x512_S512x4096_S512x4096_1_0_0_1_n_n.contr.Idx) :
    (dot_S512x512_S512x4096_S512x4096_1_0_0_1_n_n.lhsIdx i q 1).val = (q ⟨0, by decide⟩).val :=
  dot_S512x512_S512x4096_S512x4096_1_0_0_1_n_n.lhsIdx_val_of_single rfl i q
theorem rhs_dense_0 (i : S512x4096.Idx) (q : dot_S512x512_S512x4096_S512x4096_1_0_0_1_n_n.contr.Idx) :
    (dot_S512x512_S512x4096_S512x4096_1_0_0_1_n_n.rhsIdx i q 0).val = (q ⟨0, by decide⟩).val :=
  dot_S512x512_S512x4096_S512x4096_1_0_0_1_n_n.rhsIdx_val_of_single rfl i q
theorem rhs_dense_1 (i : S512x4096.Idx) (q : dot_S512x512_S512x4096_S512x4096_1_0_0_1_n_n.contr.Idx) :
    (dot_S512x512_S512x4096_S512x4096_1_0_0_1_n_n.rhsIdx i q 1).val = (i 1).val := by
  unfold DotDims.rhsIdx
  rw [dif_neg (show ¬(1 : Fin S512x4096.rank) ∈ dot_S512x512_S512x4096_S512x4096_1_0_0_1_n_n.rhsBatch by decide), dif_pos (show (1 : Fin S512x4096.rank) ∈ dot_S512x512_S512x4096_S512x4096_1_0_0_1_n_n.rhsNonContracting by decide)]
  rfl

theorem lhs_down_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhs_down_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem rhs_down_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem rhs_down_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

theorem lhs_up_0 (i : S512x4096.Idx) (q : dot_S512x128_S128x4096_S512x4096_1_0_0_1_n_n.contr.Idx) :
    (dot_S512x128_S128x4096_S512x4096_1_0_0_1_n_n.lhsIdx i q 0).val = (i 0).val := by
  unfold DotDims.lhsIdx
  rw [dif_neg (show ¬(0 : Fin S512x128.rank) ∈ dot_S512x128_S128x4096_S512x4096_1_0_0_1_n_n.lhsBatch by decide), dif_pos (show (0 : Fin S512x128.rank) ∈ dot_S512x128_S128x4096_S512x4096_1_0_0_1_n_n.lhsNonContracting by decide)]
  rfl
theorem lhs_up_1 (i : S512x4096.Idx) (q : dot_S512x128_S128x4096_S512x4096_1_0_0_1_n_n.contr.Idx) :
    (dot_S512x128_S128x4096_S512x4096_1_0_0_1_n_n.lhsIdx i q 1).val = (q ⟨0, by decide⟩).val :=
  dot_S512x128_S128x4096_S512x4096_1_0_0_1_n_n.lhsIdx_val_of_single rfl i q
theorem rhs_up_0 (i : S512x4096.Idx) (q : dot_S512x128_S128x4096_S512x4096_1_0_0_1_n_n.contr.Idx) :
    (dot_S512x128_S128x4096_S512x4096_1_0_0_1_n_n.rhsIdx i q 0).val = (q ⟨0, by decide⟩).val :=
  dot_S512x128_S128x4096_S512x4096_1_0_0_1_n_n.rhsIdx_val_of_single rfl i q
theorem rhs_up_1 (i : S512x4096.Idx) (q : dot_S512x128_S128x4096_S512x4096_1_0_0_1_n_n.contr.Idx) :
    (dot_S512x128_S128x4096_S512x4096_1_0_0_1_n_n.rhsIdx i q 1).val = (i 1).val := by
  unfold DotDims.rhsIdx
  rw [dif_neg (show ¬(1 : Fin S128x4096.rank) ∈ dot_S512x128_S128x4096_S512x4096_1_0_0_1_n_n.rhsBatch by decide), dif_pos (show (1 : Fin S128x4096.rank) ∈ dot_S512x128_S128x4096_S512x4096_1_0_0_1_n_n.rhsNonContracting by decide)]
  rfl

/-! ## The three contractions into the zero block, read at (r, o) -/

/-- The dense tile product at (r, o): row r of the left tile against column o of the right one, over the 512 shared columns. -/
theorem mat_dense_apply (a : FVec Ideal S512x512 .bf16) (b : FVec Ideal S512x4096 .bf16) (r : Fin 512) (o : Fin 4096) :
    matmul dot_S512x512_S512x4096_S512x4096_1_0_0_1_n_n none a b (constant (F := Ideal) S512x4096 .f32 0x00000000#32) (ix2 r o)
      = ∑ k : Fin 512, a (ix2 r k) * b (ix2 k o) := by
  simp only [matmul]
  rw [Ideal.matmul_constant_zero_apply, ← Equiv.sum_comp (contrEquiv1 dot_S512x512_S512x4096_S512x4096_1_0_0_1_n_n 512 rfl rfl).symm]
  refine Finset.sum_congr rfl fun k _ => ?_
  have hk := contrEquiv1_symm_val dot_S512x512_S512x4096_S512x4096_1_0_0_1_n_n 512 rfl rfl k
  have el : dot_S512x512_S512x4096_S512x4096_1_0_0_1_n_n.lhsIdx (ix2 r o) ((contrEquiv1 dot_S512x512_S512x4096_S512x4096_1_0_0_1_n_n 512 rfl rfl).symm k) = ix2 r k := funext fun c => Fin.ext (by
    match c with
    | ⟨0, _⟩ => exact lhs_dense_0 _ _
    | ⟨1, _⟩ => exact (lhs_dense_1 _ _).trans hk)
  have er : dot_S512x512_S512x4096_S512x4096_1_0_0_1_n_n.rhsIdx (ix2 r o) ((contrEquiv1 dot_S512x512_S512x4096_S512x4096_1_0_0_1_n_n 512 rfl rfl).symm k) = ix2 k o := funext fun c => Fin.ext (by
    match c with
    | ⟨0, _⟩ => exact (rhs_dense_0 _ _).trans hk
    | ⟨1, _⟩ => exact rhs_dense_1 _ _)
  rw [el, er]

/-- The down-projection tile product at (r, j): row r of the left tile against column j of the right one, over the 512 shared columns. -/
theorem mat_down_apply (a : FVec Ideal S512x512 .bf16) (b : FVec Ideal S512x128 .bf16) (r : Fin 512) (o : Fin 128) :
    matmul dot_S512x512_S512x128_S512x128_1_0_0_1_n_n none a b (constant (F := Ideal) S512x128 .f32 0x00000000#32) (ix2 r o)
      = ∑ k : Fin 512, a (ix2 r k) * b (ix2 k o) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 r o) ((contrEquiv1 dot_S512x512_S512x128_S512x128_1_0_0_1_n_n 512 rfl rfl).symm k) = ix2 r k := funext fun c => Fin.ext (by
    match c with
    | ⟨0, _⟩ => exact lhs_down_0 _ _
    | ⟨1, _⟩ => exact (lhs_down_1 _ _).trans hk)
  have er : dot_S512x512_S512x128_S512x128_1_0_0_1_n_n.rhsIdx (ix2 r o) ((contrEquiv1 dot_S512x512_S512x128_S512x128_1_0_0_1_n_n 512 rfl rfl).symm k) = ix2 k o := funext fun c => Fin.ext (by
    match c with
    | ⟨0, _⟩ => exact (rhs_down_0 _ _).trans hk
    | ⟨1, _⟩ => exact rhs_down_1 _ _)
  rw [el, er]

/-- The up-projection product at (r, o): row r of the left block against column o of the right one, over the 128 stacked ranks. -/
theorem mat_up_apply (a : FVec Ideal S512x128 .bf16) (b : FVec Ideal S128x4096 .bf16) (r : Fin 512) (o : Fin 4096) :
    matmul dot_S512x128_S128x4096_S512x4096_1_0_0_1_n_n none a b (constant (F := Ideal) S512x4096 .f32 0x00000000#32) (ix2 r o)
      = ∑ k : Fin 128, a (ix2 r k) * b (ix2 k o) := by
  simp only [matmul]
  rw [Ideal.matmul_constant_zero_apply, ← Equiv.sum_comp (contrEquiv1 dot_S512x128_S128x4096_S512x4096_1_0_0_1_n_n 128 rfl rfl).symm]
  refine Finset.sum_congr rfl fun k _ => ?_
  have hk := contrEquiv1_symm_val dot_S512x128_S128x4096_S512x4096_1_0_0_1_n_n 128 rfl rfl k
  have el : dot_S512x128_S128x4096_S512x4096_1_0_0_1_n_n.lhsIdx (ix2 r o) ((contrEquiv1 dot_S512x128_S128x4096_S512x4096_1_0_0_1_n_n 128 rfl rfl).symm k) = ix2 r k := funext fun c => Fin.ext (by
    match c with
    | ⟨0, _⟩ => exact lhs_up_0 _ _
    | ⟨1, _⟩ => exact (lhs_up_1 _ _).trans hk)
  have er : dot_S512x128_S128x4096_S512x4096_1_0_0_1_n_n.rhsIdx (ix2 r o) ((contrEquiv1 dot_S512x128_S128x4096_S512x4096_1_0_0_1_n_n 128 rfl rfl).symm k) = ix2 k o := funext fun c => Fin.ext (by
    match c with
    | ⟨0, _⟩ => exact (rhs_up_0 _ _).trans hk
    | ⟨1, _⟩ => exact rhs_up_1 _ _)
  rw [el, er]

/-! ## The payloads -/

/-- The block the dense accumulator is reset to is zero everywhere. -/
theorem pay1_apply (i : S512x4096.Idx) : (k0_pay1 (F := Ideal) i : EReal) = 0 := by
  unfold k0_pay1
  rw [shapeCast_self]
  exact Ideal.ofBits_zero_f32

/-- The block the low-rank accumulator is reset to is zero everywhere. -/
theorem pay2_apply (i : S512x128.Idx) : (k0_pay2 (F := Ideal) i : EReal) = 0 := by
  unfold k0_pay2
  rw [shapeCast_self]
  exact Ideal.ofBits_zero_f32

/-- The dense update at (r, o): the old entry plus row r of the x tile against row o of the W tile. -/
theorem pay4_apply (x0 : Vec Ideal S1x512x512 .bf16) (acc : Vec Ideal S512x4096 .f32) (x1 : Vec Ideal S4096x512 .bf16)
    (r : Fin 512) (o : Fin 4096) :
    (k0_pay4 x0 acc x1 (ix2 r o) : EReal) = acc (ix2 r o) + ∑ k : Fin 512, x0 (ix3 (0 : Fin 1) r k) * x1 (ix2 o k) := by
  unfold k0_pay4 k0_pay3
  dsimp only
  rw [shapeCast_self, shapeCast_self, addf_apply, mat_dense_apply]
  refine congrArg (acc (ix2 r o) + ·) (Finset.sum_congr rfl fun k _ => ?_)
  rw [shapeCast_1ab_ab_apply, transpose_ix2_apply]

/-- The low-rank update at (r, j): the old entry plus row r of the x tile against row j of the stacked q tile. -/
theorem pay5_apply (x0 : Vec Ideal S1x512x512 .bf16) (acc : Vec Ideal S512x128 .f32) (x2 : Vec Ideal S128x512 .bf16)
    (r : Fin 512) (j : Fin 128) :
    (k0_pay5 x0 acc x2 (ix2 r j) : EReal) = acc (ix2 r j) + ∑ k : Fin 512, x0 (ix3 (0 : Fin 1) r k) * x2 (ix2 j k) := by
  unfold k0_pay5 k0_pay3
  dsimp only
  rw [shapeCast_self, shapeCast_self, addf_apply, mat_down_apply]
  refine congrArg (acc (ix2 r j) + ·) (Finset.sum_congr rfl fun k _ => ?_)
  rw [shapeCast_1ab_ab_apply, transpose_ix2_apply]

/-- The output block at (0, r, o): the dense accumulator plus the scaled low-rank row r against row o of the stacked p. -/
theorem pay6_apply (z : Vec Ideal S512x128 .f32) (sc : Vec Ideal S1x128 .f32) (pst : Vec Ideal S4096x128 .bf16)
    (org : Vec Ideal S512x4096 .f32) (r : Fin 512) (o : Fin 4096) :
    (k0_pay6 z sc pst org (ix3 (0 : Fin 1) r o) : EReal)
      = org (ix2 r o) + ∑ j : Fin 128, (z (ix2 r j) * sc (ix2 (0 : Fin 1) j)) * pst (ix2 o j) := by
  unfold k0_pay6
  dsimp only
  rw [shapeCast_ab_1ab_apply, addf_apply, mat_up_apply]
  refine congrArg (org (ix2 r o) + ·) (Finset.sum_congr rfl fun j _ => ?_)
  rw [truncf_apply, mulf_apply, shapeCast_self, shapeCast_self, broadcastTo_1b_ab_apply, transpose_ix2_apply]

end Cert.KernelIdeal.Hand

end
-- ==== Proof.HostPrefix.lean ====
/-
  The arrays the kernel region finds, read at an index over the extended reals: x and W as given (a change of float
  format is the identity), the stacked down-projection, the stacked up-projection and the stacked scales of Spec.lean.
-/
import proofs.«161002_j53017076302218_1_alg».proof.Proof.Spec
import proofs.«161002_j53017076302218_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The region's x operand is the argument x. -/
theorem V_x (c : Dev nD) (i : S4x4096x4096.Idx) :
    (V m c main_v8 i : EReal) = m ((c : Thread nD τ).loc main_arg0) i := by
  have e : (V m c main_v8 : S4x4096x4096.Idx → EReal)
      = (truncf .bf16 (m ((c : Thread nD τ).loc main_arg0)) bitsLt_bf16_f32 : FVec Ideal S4x4096x4096 .bf16) := by
    dsimp only [Gen.V, Gen.hostOps0]; after_results
  rw [e]; rfl

/-- The region's W operand is the argument W. -/
theorem V_w (c : Dev nD) (i : S4096x4096.Idx) :
    (V m c main_v9 i : EReal) = m ((c : Thread nD τ).loc main_arg1) i := by
  have e : (V m c main_v9 : S4096x4096.Idx → EReal)
      = (truncf .bf16 (m ((c : Thread nD τ).loc main_arg1)) bitsLt_bf16_f32 : FVec Ideal S4096x4096 .bf16) := by
    dsimp only [Gen.V, Gen.hostOps0]; after_results
  rw [e]; rfl

/-- The stacked down-projection as the host operations' term: the two pieces joined along the rows. -/
theorem V_down_term (c : Dev nD) :
    (V m c main_v10 : S128x4096.Idx → EReal)
      = (truncf .bf16 (concatenate S128x4096 0
            [⟨S64x4096, m ((c : Thread nD τ).loc main_arg2)⟩, ⟨S64x4096, m ((c : Thread nD τ).loc main_arg5)⟩]
            concatenates_S64x4096_S64x4096_S128x4096_d0) bitsLt_bf16_f32 : FVec Ideal S128x4096 .bf16) := by
  dsimp only [Gen.V, Gen.hostOps0]; after_results

/-- Two row blocks of 64 joined along axis 0, read at row j: the first block for j < 64, else the second at j − 64. -/
theorem concat_rows_apply (a b : S64x4096.Idx → EReal) (j : Fin 128) (d : Fin 4096) :
    concatenate S128x4096 0 [⟨S64x4096, a⟩, ⟨S64x4096, b⟩] concatenates_S64x4096_S64x4096_S128x4096_d0 (ix2 j d)
      = Cert.Adapter.stackRow a b j d := by
  unfold Cert.Adapter.stackRow
  by_cases h : j.val < 64
  · rw [dif_pos h]
    refine concatenate_pair_apply_left (0 : Fin 2) a b _ (ix2 j d) rfl (ix2 ⟨j.val, h⟩ d) ?_
    intro x
    match x with
    | ⟨0, _⟩ => rfl
    | ⟨1, _⟩ => rfl
  · rw [dif_neg h]
    refine concatenate_pair_apply_right (0 : Fin 2) a b _ (ix2 j d) rfl rfl
      (ix2 ⟨j.val - 64, by have := j.isLt; omega⟩ d) ?_ ?_
    · intro x hx
      match x with
      | ⟨0, _⟩ => exact absurd rfl hx
      | ⟨1, _⟩ => rfl
    · show j.val - 64 + 64 = j.val
      omega

/-- The region's stacked down-projection: q's rows over q''s. -/
theorem V_down (c : Dev nD) (j : Fin 128) (d : Fin 4096) :
    (V m c main_v10 (ix2 j d) : EReal)
      = Cert.Adapter.stackRow (m ((c : Thread nD τ).loc main_arg2)) (m ((c : Thread nD τ).loc main_arg5)) j d := by
  rw [V_down_term m c]
  exact concat_rows_apply _ _ j d

/-- The stacked up-projection as the host operations' term: the two pieces joined along the columns. -/
theorem V_up_term (c : Dev nD) :
    (V m c main_v11 : S4096x128.Idx → EReal)
      = (truncf .bf16 (concatenate S4096x128 1
            [⟨S4096x64, m ((c : Thread nD τ).loc main_arg3)⟩, ⟨S4096x64, m ((c : Thread nD τ).loc main_arg6)⟩]
            concatenates_S4096x64_S4096x64_S4096x128_d1) bitsLt_bf16_f32 : FVec Ideal S4096x128 .bf16) := by
  dsimp only [Gen.V, Gen.hostOps0]; after_results

/-- Two column blocks of 64 joined along axis 1, read at column j: the first block for j < 64, else the second at
    j − 64. -/
theorem concat_cols_apply (a b : S4096x64.Idx → EReal) (o : Fin 4096) (j : Fin 128) :
    concatenate S4096x128 1 [⟨S4096x64, a⟩, ⟨S4096x64, b⟩] concatenates_S4096x64_S4096x64_S4096x128_d1 (ix2 o j)
      = Cert.Adapter.stackCol a b o j := by
  unfold Cert.Adapter.stackCol
  by_cases h : j.val < 64
  · rw [dif_pos h]
    refine concatenate_pair_apply_left (1 : Fin 2) a b _ (ix2 o j) rfl (ix2 o ⟨j.val, h⟩) ?_
    intro x
    match x with
    | ⟨0, _⟩ => rfl
    | ⟨1, _⟩ => rfl
  · rw [dif_neg h]
    refine concatenate_pair_apply_right (1 : Fin 2) a b _ (ix2 o j) rfl rfl
      (ix2 o ⟨j.val - 64, by have := j.isLt; omega⟩) ?_ ?_
    · intro x hx
      match x with
      | ⟨0, _⟩ => rfl
      | ⟨1, _⟩ => exact absurd rfl hx
    · show j.val - 64 + 64 = j.val
      omega

/-- The region's stacked up-projection: p's columns beside p''s. -/
theorem V_up (c : Dev nD) (o : Fin 4096) (j : Fin 128) :
    (V m c main_v11 (ix2 o j) : EReal)
      = Cert.Adapter.stackCol (m ((c : Thread nD τ).loc main_arg3)) (m ((c : Thread nD τ).loc main_arg6)) o j := by
  rw [V_up_term m c]
  exact concat_cols_apply _ _ o j

/-- The stacked scales as the host operations' term: l times a row of ones beside (−l') times a row of ones, joined
    along the columns. -/
theorem V_scale_term (c : Dev nD) :
    (V m c main_v7 : S1x128.Idx → EReal)
      = concatenate S1x128 1
          [⟨S1x64, mulf (m ((c : Thread nD τ).loc main_arg4))
              (broadcastInDim S1x64 ![] bcast_S_S1x64 (constant (F := Ideal) S_ .f32 0x3F800000#32))⟩,
           ⟨S1x64, mulf (Host.negf (m ((c : Thread nD τ).loc main_arg7)))
              (broadcastInDim S1x64 ![] bcast_S_S1x64 (constant (F := Ideal) S_ .f32 0x3F800000#32))⟩]
          concatenates_S1x64_S1x64_S1x128_d1 := by
  dsimp only [Gen.V, Gen.hostOps0]; after_results

/-- Two one-row blocks of 64 columns joined along axis 1, read at column j. -/
theorem concat_row_apply (a b : S1x64.Idx → EReal) (j : Fin 128) :
    concatenate S1x128 1 [⟨S1x64, a⟩, ⟨S1x64, b⟩] concatenates_S1x64_S1x64_S1x128_d1 (ix2 (0 : Fin 1) j)
      = if h : j.val < 64 then a (ix2 (0 : Fin 1) ⟨j.val, h⟩)
        else b (ix2 (0 : Fin 1) ⟨j.val - 64, by have := j.isLt; omega⟩) := by
  by_cases h : j.val < 64
  · rw [dif_pos h]
    refine concatenate_pair_apply_left (1 : Fin 2) a b _ (ix2 (0 : Fin 1) j) rfl (ix2 (0 : Fin 1) ⟨j.val, h⟩) ?_
    intro x
    match x with
    | ⟨0, _⟩ => rfl
    | ⟨1, _⟩ => rfl
  · rw [dif_neg h]
    refine concatenate_pair_apply_right (1 : Fin 2) a b _ (ix2 (0 : Fin 1) j) rfl rfl
      (ix2 (0 : Fin 1) ⟨j.val - 64, by have := j.isLt; omega⟩) ?_ ?_
    · intro x hx
      match x with
      | ⟨0, _⟩ => rfl
      | ⟨1, _⟩ => exact absurd rfl hx
    · show j.val - 64 + 64 = j.val
      omega

/-- A row times the broadcast of the scalar word of 1.0, read at an index: the entry times that word. -/
theorem mul_ones_apply (a : S1x64.Idx → EReal) (i : S1x64.Idx) :
    mulf (φ := .f32) a (broadcastInDim S1x64 ![] bcast_S_S1x64 (constant (F := Ideal) S_ .f32 0x3F800000#32)) i
      = a i * Cert.Adapter.one := by
  rw [mulf_apply]
  unfold broadcastInDim
  rw [constant_apply]

/-- The region's stacked scales: l·1 beside (−l')·1. -/
theorem V_scale (c : Dev nD) (j : Fin 128) :
    (V m c main_v7 (ix2 (0 : Fin 1) j) : EReal)
      = Cert.Adapter.stackScale (m ((c : Thread nD τ).loc main_arg4)) (m ((c : Thread nD τ).loc main_arg7)) j := by
  rw [V_scale_term m c, concat_row_apply]
  unfold Cert.Adapter.stackScale
  by_cases h : j.val < 64
  · rw [dif_pos h, dif_pos h, mul_ones_apply]
  · rw [dif_neg h, dif_neg h, mul_ones_apply]
    rfl

end Cert.KernelIdeal.Hand

end
-- ==== Proof.Blocks.lean ====
/-
  Each input window's block at a grid point, read at an index. Point n of the 4 × 8 × 8 grid is batch n / 64, row
  tile (n / 8) % 8 and column tile n % 8: its x block is rows 512·((n/8)%8) … of batch n/64 at columns
  512·(n%8) …, its W and stacked-q blocks are those columns of every row, and the stacked p and the stacked scales
  are whole at every point.
-/
import proofs.«161002_j53017076302218_1_alg».proof.Proof.Spec
import proofs.«161002_j53017076302218_1_alg».proof.Proof.HostPrefix
import proofs.«161002_j53017076302218_1_alg».proof.Proof.Gen.KernelIdeal.Frame
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The five input blocks at a point, each under the literal type the body loads it at. -/
abbrev xblk (c : Dev nD) (t : Fin cfg0.N) : Vec Ideal S1x512x512 .bf16 := iblk m c 0 t
abbrev wblk (c : Dev nD) (t : Fin cfg0.N) : Vec Ideal S4096x512 .bf16 := iblk m c 1 t
abbrev qblk (c : Dev nD) (t : Fin cfg0.N) : Vec Ideal S128x512 .bf16 := iblk m c 2 t
abbrev pblk (c : Dev nD) (t : Fin cfg0.N) : Vec Ideal S4096x128 .bf16 := iblk m c 3 t
abbrev sblk (c : Dev nD) (t : Fin cfg0.N) : Vec Ideal S1x128 .f32 := iblk m c 4 t

/-- The batch of point `n` (taken modulo 4, so that every natural names one). -/
def ptBatch (n : ℕ) : Fin 4 := ⟨n / 64 % 4, Nat.mod_lt _ (by decide)⟩

/-- Row `r` of point `n`'s row tile, as a row of the array. -/
def ptRow (n : ℕ) (r : Fin 512) : Fin 4096 := ⟨512 * (n / 8 % 8) + r.val, by have := r.isLt; omega⟩

/-- The x window's block index at point `t` is (t / 64, t / 8 % 8, t % 8). -/
theorem idx_x : ∀ t : Fin cfg0.N, win0_0.index t (0 : Fin 3) = t.val / 64 ∧ win0_0.index t (1 : Fin 3) = t.val / 8 % 8
    ∧ win0_0.index t (2 : Fin 3) = t.val % 8 :=
  (by decide +kernel : ∀ t : Fin grid0.N, _)

/-- The W window's block index at point `t` is (0, t % 8). -/
theorem idx_w : ∀ t : Fin cfg0.N, win0_1.index t (0 : Fin 2) = 0 ∧ win0_1.index t (1 : Fin 2) = t.val % 8 :=
  (by decide +kernel : ∀ t : Fin grid0.N, _)

/-- The stacked down-projection's block index at point `t` is (0, t % 8). -/
theorem idx_q : ∀ t : Fin cfg0.N, win0_2.index t (0 : Fin 2) = 0 ∧ win0_2.index t (1 : Fin 2) = t.val % 8 :=
  (by decide +kernel : ∀ t : Fin grid0.N, _)

/-- The stacked up-projection's block index is (0, 0) at every point. -/
theorem idx_p : ∀ t : Fin cfg0.N, win0_3.index t (0 : Fin 2) = 0 ∧ win0_3.index t (1 : Fin 2) = 0 :=
  (by decide +kernel : ∀ t : Fin grid0.N, _)

/-- The stacked scales' block index is (0, 0) at every point. -/
theorem idx_s : ∀ t : Fin cfg0.N, win0_4.index t (0 : Fin 2) = 0 ∧ win0_4.index t (1 : Fin 2) = 0 :=
  (by decide +kernel : ∀ t : Fin grid0.N, _)

/-- There are 256 grid points. -/
theorem pt_lt (t : Fin cfg0.N) : t.val < 256 := lt_of_lt_of_eq t.isLt N_0

theorem xblk_apply (c : Dev nD) (t : Fin cfg0.N) (r : Fin 512) (k : Fin 512) :
    (xblk m c t (ix3 (0 : Fin 1) r k) : EReal)
      = m ((c : Thread nD τ).loc main_arg0) (ix3 (ptBatch t.val) (ptRow t.val r) (Cert.Adapter.col t.val k)) := by
  obtain ⟨h0, h1, h2⟩ := idx_x t
  have ht := pt_lt t
  show (iblk m c 0 t (ix3 (0 : Fin 1) r k) : EReal) = _
  unfold iblk
  rw [View.read_apply]
  show (V m c main_v8 _ : EReal) = _
  rw [V_x]
  congr 1
  funext a
  apply Fin.ext
  match a with
  | ⟨0, _⟩ => show win0_0.index t 0 * 1 + 1 * 0 = t.val / 64 % 4; rw [h0]; omega
  | ⟨1, _⟩ => show win0_0.index t 1 * 512 + 1 * r.val = 512 * (t.val / 8 % 8) + r.val; rw [h1]; omega
  | ⟨2, _⟩ => show win0_0.index t 2 * 512 + 1 * k.val = 512 * (t.val % 8) + k.val; rw [h2]; omega

theorem wblk_apply (c : Dev nD) (t : Fin cfg0.N) (o : Fin 4096) (k : Fin 512) :
    (wblk m c t (ix2 o k) : EReal) = m ((c : Thread nD τ).loc main_arg1) (ix2 o (Cert.Adapter.col t.val k)) := by
  obtain ⟨h0, h1⟩ := idx_w t
  show (iblk m c 1 t (ix2 o k) : EReal) = _
  unfold iblk
  rw [View.read_apply]
  show (V m c main_v9 _ : EReal) = _
  rw [V_w]
  congr 1
  funext a
  apply Fin.ext
  match a with
  | ⟨0, _⟩ => show win0_1.index t 0 * 4096 + 1 * o.val = o.val; rw [h0]; omega
  | ⟨1, _⟩ => show win0_1.index t 1 * 512 + 1 * k.val = 512 * (t.val % 8) + k.val; rw [h1]; omega

theorem qblk_apply (c : Dev nD) (t : Fin cfg0.N) (j : Fin 128) (k : Fin 512) :
    (qblk m c t (ix2 j k) : EReal)
      = Cert.Adapter.stackRow (m ((c : Thread nD τ).loc main_arg2)) (m ((c : Thread nD τ).loc main_arg5)) j (Cert.Adapter.col t.val k) := by
  obtain ⟨h0, h1⟩ := idx_q t
  show (iblk m c 2 t (ix2 j k) : EReal) = _
  unfold iblk
  rw [View.read_apply]
  show (V m c main_v10 _ : EReal) = _
  refine Eq.trans (congrArg (fun i => (V m c main_v10 i : EReal)) (?_ : _ = ix2 j (Cert.Adapter.col t.val k))) (V_down m c j _)
  funext a
  apply Fin.ext
  match a with
  | ⟨0, _⟩ => show win0_2.index t 0 * 128 + 1 * j.val = j.val; rw [h0]; omega
  | ⟨1, _⟩ => show win0_2.index t 1 * 512 + 1 * k.val = 512 * (t.val % 8) + k.val; rw [h1]; omega

theorem pblk_apply (c : Dev nD) (t : Fin cfg0.N) (o : Fin 4096) (j : Fin 128) :
    (pblk m c t (ix2 o j) : EReal)
      = Cert.Adapter.stackCol (m ((c : Thread nD τ).loc main_arg3)) (m ((c : Thread nD τ).loc main_arg6)) o j := by
  obtain ⟨h0, h1⟩ := idx_p t
  show (iblk m c 3 t (ix2 o j) : EReal) = _
  unfold iblk
  rw [View.read_apply]
  show (V m c main_v11 _ : EReal) = _
  refine Eq.trans (congrArg (fun i => (V m c main_v11 i : EReal)) (?_ : _ = ix2 o j)) (V_up m c o j)
  funext a
  apply Fin.ext
  match a with
  | ⟨0, _⟩ => show win0_3.index t 0 * 4096 + 1 * o.val = o.val; rw [h0]; omega
  | ⟨1, _⟩ => show win0_3.index t 1 * 128 + 1 * j.val = j.val; rw [h1]; omega

theorem sblk_apply (c : Dev nD) (t : Fin cfg0.N) (j : Fin 128) :
    (sblk m c t (ix2 (0 : Fin 1) j) : EReal)
      = Cert.Adapter.stackScale (m ((c : Thread nD τ).loc main_arg4)) (m ((c : Thread nD τ).loc main_arg7)) j := by
  obtain ⟨h0, h1⟩ := idx_s t
  show (iblk m c 4 t (ix2 (0 : Fin 1) j) : EReal) = _
  unfold iblk
  rw [View.read_apply]
  show (V m c main_v7 _ : EReal) = _
  refine Eq.trans (congrArg (fun i => (V m c main_v7 i : EReal)) (?_ : _ = ix2 (0 : Fin 1) j)) (V_scale m c j)
  funext a
  apply Fin.ext
  match a with
  | ⟨0, _⟩ => show win0_4.index t 0 * 1 + 1 * 0 = 0; rw [h0]
  | ⟨1, _⟩ => show win0_4.index t 1 * 128 + 1 * j.val = j.val; rw [h1]; omega

end Cert.KernelIdeal.Hand

end
-- ==== Proof.Fold.lean ====
/-
  The two accumulators after any grid point, and the output block at a last-tile point. Each point adds to the dense
  accumulator the product of its x tile with its W tile, and to the low-rank accumulator the product of its x tile
  with its stacked-q tile; the first point of a run of eight starts both from zero. So after point t the
  accumulators are zero plus the addends of the points 8·(t/8) … t, and at a point with t % 8 = 7 the output block
  is the dense accumulator plus the scaled low-rank accumulator projected up by the stacked p.
-/
import proofs.«161002_j53017076302218_1_alg».proof.Proof.Spec
import proofs.«161002_j53017076302218_1_alg».proof.Proof.Pieces
import proofs.«161002_j53017076302218_1_alg».proof.Proof.Payload
import proofs.«161002_j53017076302218_1_alg».proof.Proof.Blocks
import proofs.«161002_j53017076302218_1_alg».proof.Proof.Gen.KernelIdeal.Value
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.ValueIdx
open Cert.Adapter (col stackRow stackCol stackScale)

variable (m : (ℓ : Loc nD τ sig) → Buf (Elt Ideal) ℓ)

/-- The argument arrays x, W, q, q', each under its literal type. -/
abbrev argX (c : Dev nD) : Cert.Adapter.SX.Idx → EReal := m ((c : Thread nD τ).loc main_arg0)
abbrev argW (c : Dev nD) : Cert.Adapter.SW.Idx → EReal := m ((c : Thread nD τ).loc main_arg1)
abbrev argQ (c : Dev nD) : Cert.Adapter.SQ.Idx → EReal := m ((c : Thread nD τ).loc main_arg2)
abbrev argQ' (c : Dev nD) : Cert.Adapter.SQ.Idx → EReal := m ((c : Thread nD τ).loc main_arg5)

/-- What point `n` adds to the dense accumulator at (r, o): row r of its x tile against row o of W over its columns. -/
def addOrg (c : Dev nD) (n : ℕ) : S512x4096.Idx → EReal := fun i =>
  ∑ k : Fin 512, argX m c (ix3 (ptBatch n) (ptRow n (i 0)) (col n k)) * argW m c (ix2 (i 1) (col n k))

/-- What point `n` adds to the low-rank accumulator at (r, j): row r of its x tile against row j of the stacked q. -/
def addLow (c : Dev nD) (n : ℕ) : S512x128.Idx → EReal := fun i =>
  ∑ k : Fin 512, argX m c (ix3 (ptBatch n) (ptRow n (i 0)) (col n k)) * stackRow (argQ m c) (argQ' m c) (i 1) (col n k)

/-- One dense update: the old entry plus the point's addend. -/
theorem step_org (c : Dev nD) (n : ℕ) (hb : n < cfg0.N) (acc : Vec Ideal S512x4096 .f32) (i : S512x4096.Idx) :
    (k0_pay4 (xblk m c ⟨n, hb⟩) acc (wblk m c ⟨n, hb⟩) i : EReal) = acc i + addOrg m c n i := by
  obtain ⟨r, o, rfl⟩ : ∃ (r : Fin 512) (o : Fin 4096), i = ix2 r o := ⟨i 0, i 1, eq_ix2 i⟩
  refine (pay4_apply (xblk m c ⟨n, hb⟩) acc (wblk m c ⟨n, hb⟩) r o).trans ?_
  refine congrArg (acc (ix2 r o) + ·) (Finset.sum_congr rfl fun k _ => ?_)
  rw [xblk_apply m c ⟨n, hb⟩ r k, wblk_apply m c ⟨n, hb⟩ o k]

/-- One low-rank update: the old entry plus the point's addend. -/
theorem step_low (c : Dev nD) (n : ℕ) (hb : n < cfg0.N) (acc : Vec Ideal S512x128 .f32) (i : S512x128.Idx) :
    (k0_pay5 (xblk m c ⟨n, hb⟩) acc (qblk m c ⟨n, hb⟩) i : EReal) = acc i + addLow m c n i := by
  obtain ⟨r, j, rfl⟩ : ∃ (r : Fin 512) (j : Fin 128), i = ix2 r j := ⟨i 0, i 1, eq_ix2 i⟩
  refine (pay5_apply (xblk m c ⟨n, hb⟩) acc (qblk m c ⟨n, hb⟩) r j).trans ?_
  refine congrArg (acc (ix2 r j) + ·) (Finset.sum_congr rfl fun k _ => ?_)
  rw [xblk_apply m c ⟨n, hb⟩ r k, qblk_apply m c ⟨n, hb⟩ j k]

/-- At the first point of a run the dense accumulator is left at zero plus the point's addend, whatever it held. -/
theorem org_reset (c : Dev nD) (n : ℕ) (hb : n < cfg0.N) (h0 : n % 8 = 0) (old : Vec Ideal S512x4096 .f32) (i : S512x4096.Idx) :
    (Value.scAt0_0 m c n hb old i : EReal) = 0 + addOrg m c n i := by
  have h1 : ¬n % 8 = 7 := by omega
  unfold Value.scAt0_0
  rw [dif_pos h0, dif_neg h1, Pieces.orgA]
  refine (step_org m c n hb (k0_pay1 (F := Ideal)) i).trans ?_
  rw [pay1_apply]

/-- At every other point of the run it is left at what it held plus the point's addend. -/
theorem org_step (c : Dev nD) (n : ℕ) (hb : n < cfg0.N) (h0 : ¬n % 8 = 0) (acc : Vec Ideal S512x4096 .f32) (i : S512x4096.Idx) :
    (Value.scAt0_0 m c n hb acc i : EReal) = acc i + addOrg m c n i := by
  unfold Value.scAt0_0
  rw [dif_neg h0]
  by_cases h1 : n % 8 = 7
  · rw [dif_pos h1, Pieces.orgC]; exact step_org m c n hb acc i
  · rw [dif_neg h1, Pieces.orgB]; exact step_org m c n hb acc i

theorem low_reset (c : Dev nD) (n : ℕ) (hb : n < cfg0.N) (h0 : n % 8 = 0) (old : Vec Ideal S512x128 .f32) (i : S512x128.Idx) :
    (Value.scAt0_1 m c n hb old i : EReal) = 0 + addLow m c n i := by
  have h1 : ¬n % 8 = 7 := by omega
  unfold Value.scAt0_1
  rw [dif_pos h0, dif_neg h1, Pieces.lowA]
  refine (step_low m c n hb (k0_pay2 (F := Ideal)) i).trans ?_
  rw [pay2_apply]

theorem low_step (c : Dev nD) (n : ℕ) (hb : n < cfg0.N) (h0 : ¬n % 8 = 0) (acc : Vec Ideal S512x128 .f32) (i : S512x128.Idx) :
    (Value.scAt0_1 m c n hb acc i : EReal) = acc i + addLow m c n i := by
  unfold Value.scAt0_1
  rw [dif_neg h0]
  by_cases h1 : n % 8 = 7
  · rw [dif_pos h1, Pieces.lowC]; exact step_low m c n hb acc i
  · rw [dif_neg h1, Pieces.lowB]; exact step_low m c n hb acc i

/-- The dense accumulator after point t: zero plus the addends of the points of t's run up to t. -/
theorem org_fold (c : Dev nD) (t : Fin cfg0.N) (i : S512x4096.Idx) :
    ((outsAt0 m c t.val t.isLt).2.1 i : EReal)
      = 0 + ∑ s ∈ Finset.range (t.val % 8 + 1), addOrg m c (8 * (t.val / 8) + s) i := by
  rw [Value.soutsAt0_0_eq m c t]
  exact Pipeline.accAt_add_apply _ _ (fun _ => (0 : EReal)) (addOrg m c) (8 * (t.val / 8)) 7
    (fun h i => org_reset m c _ h (Nat.mul_mod_right 8 _) _ i)
    (fun n h acc i h1 h2 => org_step m c n h (by omega) acc i)
    (t.val % 8) (by omega) _ i

/-- The low-rank accumulator after point t, likewise. -/
theorem low_fold (c : Dev nD) (t : Fin cfg0.N) (i : S512x128.Idx) :
    ((outsAt0 m c t.val t.isLt).2.2 i : EReal)
      = 0 + ∑ s ∈ Finset.range (t.val % 8 + 1), addLow m c (8 * (t.val / 8) + s) i := by
  rw [Value.soutsAt0_1_eq m c t]
  exact Pipeline.accAt_add_apply _ _ (fun _ => (0 : EReal)) (addLow m c) (8 * (t.val / 8)) 7
    (fun h i => low_reset m c _ h (Nat.mul_mod_right 8 _) _ i)
    (fun n h acc i h1 h2 => low_step m c n h (by omega) acc i)
    (t.val % 8) (by omega) _ i

/-- At a last-tile point the output block is the final step applied to the two accumulators as that point leaves them. -/
theorem out_last (c : Dev nD) (t : Fin cfg0.N) (h0 : ¬t.val % 8 = 0) (h1 : t.val % 8 = 7) :
    (outsAt0 m c t.val t.isLt).1
      = k0_pay6 (outsAt0 m c t.val t.isLt).2.2 (sblk m c t) (pblk m c t) (outsAt0 m c t.val t.isLt).2.1 := by
  rw [outsAt0_C m c t h0 h1]
  dsimp only
  rw [Pieces.outC, Pieces.orgC, Pieces.lowC]

/-- The output block at a last-tile point, at (0, r, o). -/
theorem out_last_apply (c : Dev nD) (t : Fin cfg0.N) (h1 : t.val % 8 = 7) (r : Fin 512) (o : Fin 4096) :
    ((outsAt0 m c t.val t.isLt).1 (ix3 (0 : Fin 1) r o) : EReal)
      = (0 + ∑ s ∈ Finset.range 8, addOrg m c (8 * (t.val / 8) + s) (ix2 r o))
        + ∑ j : Fin 128, ((0 + ∑ s ∈ Finset.range 8, addLow m c (8 * (t.val / 8) + s) (ix2 r j))
            * stackScale (m ((c : Thread nD τ).loc main_arg4)) (m ((c : Thread nD τ).loc main_arg7)) j)
          * stackCol (m ((c : Thread nD τ).loc main_arg3)) (m ((c : Thread nD τ).loc main_arg6)) o j := by
  have h0 : ¬t.val % 8 = 0 := by omega
  rw [out_last m c t h0 h1]
  refine (pay6_apply _ (sblk m c t) (pblk m c t) _ r o).trans ?_
  rw [org_fold m c t (ix2 r o), h1]
  refine congrArg ((0 + ∑ s ∈ Finset.range 8, addOrg m c (8 * (t.val / 8) + s) (ix2 r o)) + ·) (Finset.sum_congr rfl fun j _ => ?_)
  rw [low_fold m c t (ix2 r j), h1, sblk_apply m c t j, pblk_apply m c t o j]

end Cert.KernelIdeal.Hand

end
-- ==== Proof.KernelValue.lean ====
/-
  The kernel program's result array. The output window's block at point t is batch t/64, rows 512·((t/8)%8) …,
  all 4096 columns, and it is written back at the points with t % 8 = 7: there it holds, at (0, r, o), the kernel
  formula `K` of Spec.lean at (t/64, 512·((t/8)%8) + r, o) — the eight addends of the run are the eight column
  tiles. These blocks tile the array, so the array ends holding `K` of the arguments.
-/
import proofs.«161002_j53017076302218_1_alg».proof.Proof.Spec
import proofs.«161002_j53017076302218_1_alg».proof.Proof.Fold
import proofs.«161002_j53017076302218_1_alg».proof.Proof.Gen.KernelIdeal.Value
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open Cert.Adapter (col stackRow stackCol stackScale)

variable (m : (ℓ : Loc nD τ sig) → Buf (Elt Ideal) ℓ) (ρ : Dev nD → PrngReg)

/-- The kernel formula of the launched argument arrays. -/
abbrev kernelResult (c : Dev nD) : S4x4096x4096.Idx → EReal :=
  Cert.Adapter.K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The output window's block index at a point: its batch, its row tile, and column block 0. -/
theorem idx_out : ∀ t : Fin cfg0.N, win0_5.index t (0 : Fin 3) = t.val / 64 ∧ win0_5.index t (1 : Fin 3) = t.val / 8 % 8
    ∧ win0_5.index t (2 : Fin 3) = 0 :=
  (by decide +kernel : ∀ t : Fin grid0.N, _)

/-- Within a run of eight points the batch and the row tile do not move, and the column tile is the offset. -/
theorem addOrg_run (c : Dev nD) (q s : ℕ) (hs : s < 8) (r : Fin 512) (o : Fin 4096) :
    addOrg m c (8 * q + s) (ix2 r o)
      = ∑ k : Fin 512, argX m c (ix3 (ptBatch (8 * q)) (ptRow (8 * q) r) (col s k)) * argW m c (ix2 o (col s k)) := by
  have e1 : ptBatch (8 * q + s) = ptBatch (8 * q) := Fin.ext (by show (8 * q + s) / 64 % 4 = 8 * q / 64 % 4; omega)
  have e2 : ptRow (8 * q + s) r = ptRow (8 * q) r :=
    Fin.ext (by show 512 * ((8 * q + s) / 8 % 8) + r.val = 512 * (8 * q / 8 % 8) + r.val; omega)
  have e3 : ∀ k : Fin 512, col (8 * q + s) k = col s k := fun k =>
    Fin.ext (by show 512 * ((8 * q + s) % 8) + k.val = 512 * (s % 8) + k.val; omega)
  show ∑ k : Fin 512, argX m c (ix3 (ptBatch (8 * q + s)) (ptRow (8 * q + s) r) (col (8 * q + s) k)) * argW m c (ix2 o (col (8 * q + s) k)) = _
  refine Finset.sum_congr rfl fun k _ => ?_
  rw [e1, e2, e3 k]

theorem addLow_run (c : Dev nD) (q s : ℕ) (hs : s < 8) (r : Fin 512) (j : Fin 128) :
    addLow m c (8 * q + s) (ix2 r j)
      = ∑ k : Fin 512, argX m c (ix3 (ptBatch (8 * q)) (ptRow (8 * q) r) (col s k)) * stackRow (argQ m c) (argQ' m c) j (col s k) := by
  have e1 : ptBatch (8 * q + s) = ptBatch (8 * q) := Fin.ext (by show (8 * q + s) / 64 % 4 = 8 * q / 64 % 4; omega)
  have e2 : ptRow (8 * q + s) r = ptRow (8 * q) r :=
    Fin.ext (by show 512 * ((8 * q + s) / 8 % 8) + r.val = 512 * (8 * q / 8 % 8) + r.val; omega)
  have e3 : ∀ k : Fin 512, col (8 * q + s) k = col s k := fun k =>
    Fin.ext (by show 512 * ((8 * q + s) % 8) + k.val = 512 * (s % 8) + k.val; omega)
  show ∑ k : Fin 512, argX m c (ix3 (ptBatch (8 * q + s)) (ptRow (8 * q + s) r) (col (8 * q + s) k)) * stackRow (argQ m c) (argQ' m c) j (col (8 * q + s) k) = _
  refine Finset.sum_congr rfl fun k _ => ?_
  rw [e1, e2, e3 k]

/-- At a last-tile point the output block at (0, r, o) is `K` at the point's batch and row. -/
theorem out_is_K (c : Dev nD) (t : Fin cfg0.N) (h1 : t.val % 8 = 7) (r : Fin 512) (o : Fin 4096) :
    ((outsAt0 m c t.val t.isLt).1 (ix3 (0 : Fin 1) r o) : EReal)
      = kernelResult m c (ix3 (ptBatch (8 * (t.val / 8))) (ptRow (8 * (t.val / 8)) r) o) := by
  rw [out_last_apply m c t h1 r o]
  have hO : ∑ s ∈ Finset.range 8, addOrg m c (8 * (t.val / 8) + s) (ix2 r o)
      = ∑ s ∈ Finset.range 8, ∑ k : Fin 512, argX m c (ix3 (ptBatch (8 * (t.val / 8))) (ptRow (8 * (t.val / 8)) r) (col s k)) * argW m c (ix2 o (col s k)) :=
    Finset.sum_congr rfl fun s hs => addOrg_run m c (t.val / 8) s (Finset.mem_range.mp hs) r o
  have hL : ∀ j : Fin 128, ∑ s ∈ Finset.range 8, addLow m c (8 * (t.val / 8) + s) (ix2 r j)
      = ∑ s ∈ Finset.range 8, ∑ k : Fin 512, argX m c (ix3 (ptBatch (8 * (t.val / 8))) (ptRow (8 * (t.val / 8)) r) (col s k)) * stackRow (argQ m c) (argQ' m c) j (col s k) :=
    fun j => Finset.sum_congr rfl fun s hs => addLow_run m c (t.val / 8) s (Finset.mem_range.mp hs) r j
  rw [hO]
  simp only [hL]
  rfl

/-- WHAT A LAST-TILE POINT WRITES BACK is its block of `K`. -/
theorem flushed_eq (c : Dev nD) (t : Fin cfg0.N) (h1 : t.val % 8 = 7) :
    (dats m 0 c).flushed 5 t = ((cfg0.win 5).blk t).view.read (Elt Ideal) (kernelResult m c) := by
  rw [Value.flushed5 m c t]
  obtain ⟨e0, e1, e2⟩ := idx_out t
  have hN := pt_lt t
  funext y
  obtain ⟨z, r, o, rfl⟩ : ∃ (z : Fin 1) (r : Fin 512) (o : Fin 4096), y = ix3 z r o := ⟨y 0, y 1, y 2, eq_ix3 y⟩
  obtain rfl : z = 0 := Subsingleton.elim _ _
  rw [View.read_apply]
  have he : ((cfg0.win 5).blk t).view.emb (ix3 (0 : Fin 1) r o) = ix3 (ptBatch (8 * (t.val / 8))) (ptRow (8 * (t.val / 8)) r) o := by
    funext a; apply Fin.ext
    match a with
    | ⟨0, _⟩ => show win0_5.index t (0 : Fin 3) * 1 + 1 * 0 = 8 * (t.val / 8) / 64 % 4; omega
    | ⟨1, _⟩ => show win0_5.index t (1 : Fin 3) * 512 + 1 * r.val = 512 * (8 * (t.val / 8) / 8 % 8) + r.val; omega
    | ⟨2, _⟩ => show win0_5.index t (2 : Fin 3) * 4096 + 1 * o.val = o.val; omega
  rw [he]
  exact out_is_K m c t h1 r o

/-- An index of the array is in point t's block iff each coordinate is in the block's range on its axis. -/
theorem mem_blk (t : Fin cfg0.N) (i : S4x4096x4096.Idx) :
    i ∈ ((cfg0.win 5).blk t).view.set ↔ ∀ a : Fin 3, win0_5.index t a * S1x512x4096.size a ≤ (i a).val
      ∧ (i a).val < win0_5.index t a * S1x512x4096.size a + S1x512x4096.size a := by
  show i ∈ ((View.whole main_v12).slice (win0_5.rect t)).set ↔ _
  rw [View.set_slice_whole, Rect.mem_set_unit]
  exact Iff.rfl

/-- Every index (b, s, o) lies in the block of the last-tile point of batch b and row tile s / 512. -/
theorem covered (i : S4x4096x4096.Idx) :
    ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 4096 := (i 2).isLt
  have hN : cfg0.N = 256 := N_0
  let t : Fin cfg0.N := ⟨64 * (i 0).val + 8 * ((i 1).val / 512) + 7, by rw [hN]; omega⟩
  have ht : t.val = 64 * (i 0).val + 8 * ((i 1).val / 512) + 7 := rfl
  obtain ⟨e0, e1, e2⟩ := idx_out t
  refine ⟨t, (flush0_5 t).mpr (by rw [ht]; omega), ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 4096 ≤ (i 2).val ∧ (i 2).val < win0_5.index t (2 : Fin 3) * 4096 + 4096; omega

/-- THE ARRAY after the run is `K` of the arguments. -/
theorem final (c : Dev nD) : (dats m 0 c).arrAt 5 cfg0.N = kernelResult m c :=
  (dats m 0 c).arrAt_eq_of_cover 5 (kernelResult m c)
    (fun t hf => flushed_eq m c t ((flush0_5 t).mp hf)) covered

/-- The kernel program's run: the result array at `K` of the arguments, the arguments unchanged. -/
theorem run : θ_run defs (onTc (τ := τ) (main (F := Ideal))) ⟨m, fun _ => 0, ρ⟩ fun r => ∀ c : Dev nD,
      r.2.mem ((c : Thread nD τ).loc main_v12) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Hand

end
-- ==== Proof.lean ====
/-
  A low-rank adapter layer over x [4,4096,4096]: the dense term x·Wᵀ plus the difference of two rank-64 paths
  ((x·qᵀ)∘l)·pᵀ − ((x·q'ᵀ)∘l')·p'ᵀ, times 1.

  The kernel stacks the two paths into one of rank 128 (the rows of q over those of q', the columns of p beside
  those of p', the scales l·1 beside (−l')·1) and walks a 4 × 8 × 8 grid: for each batch and each tile of 512 rows it
  visits the eight tiles of 512 input columns in turn, adding the tile's products into a dense accumulator and a
  low-rank accumulator, both set to zero at the first column tile; at the last column tile it writes the block
  (dense accumulator) + ((low-rank accumulator)∘scales)·(stacked p)ᵀ. The conversions to a narrower float format are
  the identity on the extended reals.

  So the kernel's result is the formula `K` of Proof/Spec.lean (Proof/KernelValue.lean: the accumulators as zero plus
  the eight tile sums, Proof/Fold.lean; the blocks tile the array), the reference's is the formula `G`
  (Proof/RefValue.lean), and on arrays of real numbers — which the precondition gives, Proof/Finite.lean — the two
  agree (Proof/Law.lean): the eight tile sums are the sum over all 4096 columns, the rank-128 sum splits into the two
  rank-64 sums, and the sign moves out of the second because every term is a real number.
  No operation was rewritten by the idealization, so there is nothing to preserve.
-/
import proofs.«161002_j53017076302218_1_alg».proof.Defs
import proofs.«161002_j53017076302218_1_alg».proof.Proof.Gen.Kernel
import proofs.«161002_j53017076302218_1_alg».proof.Proof.Gen.Kernel.Skeleton
import proofs.«161002_j53017076302218_1_alg».proof.Proof.Gen.Kernel.Launch
import proofs.«161002_j53017076302218_1_alg».proof.Proof.Gen.Kernel.Points
import proofs.«161002_j53017076302218_1_alg».proof.Proof.Gen.Kernel.Frame
import proofs.«161002_j53017076302218_1_alg».proof.Proof.Gen.KernelIdeal
import proofs.«161002_j53017076302218_1_alg».proof.Proof.Gen.KernelIdeal.Skeleton
import proofs.«161002_j53017076302218_1_alg».proof.Proof.Gen.KernelIdeal.Launch
import proofs.«161002_j53017076302218_1_alg».proof.Proof.Gen.KernelIdeal.Points
import proofs.«161002_j53017076302218_1_alg».proof.Proof.Gen.KernelIdeal.Frame
import proofs.«161002_j53017076302218_1_alg».proof.Proof.Gen.ReferenceIdeal
import proofs.«161002_j53017076302218_1_alg».proof.Proof.Gen.Pre_finite_inputs
import proofs.«161002_j53017076302218_1_alg».proof.Proof.Gen.KernelIdeal.Value
import proofs.«161002_j53017076302218_1_alg».proof.Proof.Gen.ReferenceIdeal.Run
import proofs.«161002_j53017076302218_1_alg».proof.Proof.Gen.ReferenceIdeal.Read
import proofs.«161002_j53017076302218_1_alg».proof.Proof.Law
import proofs.«161002_j53017076302218_1_alg».proof.Proof.RefValue
import proofs.«161002_j53017076302218_1_alg».proof.Proof.Finite
import proofs.«161002_j53017076302218_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_k : Cert.frame_Kernel := fun m ρ _ => Cert.Kernel.Gen.frame m ρ

/-- So does the kernel program over the extended reals. -/
theorem frame_ki : Cert.frame_KernelIdeal := fun m ρ _ => Cert.KernelIdeal.Gen.frame m ρ

/-- The reference program is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the eight arguments, all real: the kernel program ends at `K` of them, the reference
    at `G` of them, and `K = G`. -/
theorem algebraic : Cert.algebraic_KernelIdeal_ReferenceIdeal := by
  intro m ρ m' ρ' hpre hagree
  refine ⟨fun c => Cert.KernelIdeal.Hand.kernelResult m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4, f5, f6, f7⟩ := Cert.Adapter.finite_of_pre _ _ _ _ _ _ _ _ (hpre c)
  obtain ⟨a0, a1, a2, a3, a4, a5, a6, a7⟩ := hagree c
  refine (Cert.ReferenceIdeal.Read.val_main_v14_eq _ _ _ _ _ _ _ _).trans ?_
  rw [Cert.ReferenceIdeal.RefValue.ref_eq_G, a0, a1, a2, a3, a4, a5, a6, a7]
  exact (Cert.Adapter.K_eq_G _ _ _ _ _ _ _ _ f0 f1 f2 f3 f4 f5 f6 f7).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
